-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.sign_bit.Statement Cert.KernelIdeal.S256x3072 .f32
  ∧ IdealRules.sign_bit.Statement Cert.KernelIdeal.S256x1536 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S3072x784 : Shape := ⟨2, ![3072, 784]⟩
abbrev S3072 : Shape := ⟨1, ![3072]⟩
abbrev S1536x3072 : Shape := ⟨2, ![1536, 3072]⟩
abbrev S1536 : Shape := ⟨1, ![1536]⟩
abbrev S768x1536 : Shape := ⟨2, ![768, 1536]⟩
abbrev S768 : Shape := ⟨1, ![768]⟩
abbrev S10x768 : Shape := ⟨2, ![10, 768]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S3072x784 : S_.BroadcastsInDim S3072x784 (![] : Fin 0 → Fin S3072x784.rank)
  reducesTo_S3072x784_S_d0_1 : S3072x784.ReducesTo [0, 1] S_
  bcast_S_S3072 : S_.BroadcastsInDim S3072 (![] : Fin 0 → Fin S3072.rank)
  reducesTo_S3072_S_d0 : S3072.ReducesTo [0] S_
  bcast_S_S1536x3072 : S_.BroadcastsInDim S1536x3072 (![] : Fin 0 → Fin S1536x3072.rank)
  reducesTo_S1536x3072_S_d0_1 : S1536x3072.ReducesTo [0, 1] S_
  bcast_S_S1536 : S_.BroadcastsInDim S1536 (![] : Fin 0 → Fin S1536.rank)
  reducesTo_S1536_S_d0 : S1536.ReducesTo [0] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S10x768 : S_.BroadcastsInDim S10x768 (![] : Fin 0 → Fin S10x768.rank)
  reducesTo_S10x768_S_d0_1 : S10x768.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg12 : FVec F S3072 .f32) (main_arg16 : FVec F S1536 .f32) (main_arg20 : FVec F S768 .f32) (main_v98 : IVec S_ 1) (main_v101 : IVec S768 1) (main_c_39 : IVec S_ 1) : IVec S_ 1 :=
  let main_v102 : IVec S_ 1 := (fun x v => Host.reduce IntOp.andi x v reducesTo_S768_S_d0 h_S_) main_v101 main_c_39
  let main_v103 : IVec S_ 1 := andi main_v98 main_v102
  let main_cst_40 : FVec F S_ .f32 := constant S_ .f32 0x00000000#32
  let main_v104 : FVec F S3072 .f32 := broadcastInDim S3072 ![] bcast_S_S3072 main_cst_40
  let main_v105 : IVec S3072 1 := cmpf .oge main_arg12 main_v104
  let main_c_41 : IVec S_ 1 := constantI S_ 1 1#1
  let main_v106 : IVec S_ 1 := (fun x v => Host.reduce IntOp.andi x v reducesTo_S3072_S_d0 h_S_) main_v105 main_c_41
  let main_v107 : IVec S_ 1 := andi main_v103 main_v106
  let main_cst_42 : FVec F S_ .f32 := constant S_ .f32 0x00000000#32
  let main_v108 : FVec F S1536 .f32 := broadcastInDim S1536 ![] bcast_S_S1536 main_cst_42
  let main_v109 : IVec S1536 1 := cmpf .oge main_arg16 main_v108
  let main_c_43 : IVec S_ 1 := constantI S_ 1 1#1
  let main_v110 : IVec S_ 1 := (fun x v => Host.reduce IntOp.andi x v reducesTo_S1536_S_d0 h_S_) main_v109 main_c_43
  let main_v111 : IVec S_ 1 := andi main_v107 main_v110
  let main_cst_44 : FVec F S_ .f32 := constant S_ .f32 0x00000000#32
  let main_v112 : FVec F S768 .f32 := broadcastInDim S768 ![] bcast_S_S768 main_cst_44
  let main_v113 : IVec S768 1 := cmpf .oge main_arg20 main_v112
  let main_c_45 : IVec S_ 1 := constantI S_ 1 1#1
  let main_v114 : IVec S_ 1 := (fun x v => Host.reduce IntOp.andi x v reducesTo_S768_S_d0 h_S_) main_v113 main_c_45
  let main_v115 : IVec S_ 1 := andi main_v111 main_v114
  main_v115

def fn_part5 {F : FTy → Type} [FloatOps F] (main_arg12 : FVec F S3072 .f32) (main_arg16 : FVec F S1536 .f32) (main_arg18 : FVec F S768 .f32) (main_arg19 : FVec F S768 .f32) (main_arg20 : FVec F S768 .f32) (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  let main_v89 : FVec F S768 .f32 := Host.absf main_arg18
  let main_cst_34 : FVec F S_ .f32 := constant S_ .f32 0x7F800000#32
  let main_v90 : FVec F S768 .f32 := broadcastInDim S768 ![] bcast_S_S768 main_cst_34
  let main_v91 : IVec S768 1 := cmpf .olt main_v89 main_v90
  let main_c_35 : IVec S_ 1 := constantI S_ 1 1#1
  let main_v92 : IVec S_ 1 := (fun x v => Host.reduce IntOp.andi x v reducesTo_S768_S_d0 h_S_) main_v91 main_c_35
  let main_v93 : IVec S_ 1 := andi main_v88 main_v92
  let main_v94 : FVec F S768 .f32 := Host.absf main_arg19
  let main_cst_36 : FVec F S_ .f32 := constant S_ .f32 0x7F800000#32
  let main_v95 : FVec F S768 .f32 := broadcastInDim S768 ![] bcast_S_S768 main_cst_36
  let main_v96 : IVec S768 1 := cmpf .olt main_v94 main_v95
  let main_c_37 : IVec S_ 1 := constantI S_ 1 1#1
  let main_v97 : IVec S_ 1 := (fun x v => Host.reduce IntOp.andi x v reducesTo_S768_S_d0 h_S_) main_v96 main_c_37
  let main_v98 : IVec S_ 1 := andi main_v93 main_v97
  let main_v99 : FVec F S768 .f32 := Host.absf main_arg20
  let main_cst_38 : FVec F S_ .f32 := constant S_ .f32 0x7F800000#32
  let main_v100 : FVec F S768 .f32 := broadcastInDim S768 ![] bcast_S_S768 main_cst_38
  let main_v101 : IVec S768 1 := cmpf .olt main_v99 main_v100
  let main_c_39 : IVec S_ 1 := constantI S_ 1 1#1
  fn_part6 (F := F) main_arg12 main_arg16 main_arg20 main_v98 main_v101 main_c_39

def fn_part4 {F : FTy → Type} [FloatOps F] (main_arg12 : FVec F S3072 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v63 : IVec S_ 1) (main_v67 : IVec S_ 1) : IVec S_ 1 :=
  let main_v68 : IVec S_ 1 := andi main_v63 main_v67
  let main_v69 : FVec F S1536 .f32 := Host.absf main_arg14
  let main_cst_26 : FVec F S_ .f32 := constant S_ .f32 0x7F800000#32
  let main_v70 : FVec F S1536 .f32 := broadcastInDim S1536 ![] bcast_S_S1536 main_cst_26
  let main_v71 : IVec S1536 1 := cmpf .olt main_v69 main_v70
  let main_c_27 : IVec S_ 1 := constantI S_ 1 1#1
  let main_v72 : IVec S_ 1 := (fun x v => Host.reduce IntOp.andi x v reducesTo_S1536_S_d0 h_S_) main_v71 main_c_27
  let main_v73 : IVec S_ 1 := andi main_v68 main_v72
  let main_v74 : FVec F S1536 .f32 := Host.absf main_arg15
  let main_cst_28 : FVec F S_ .f32 := constant S_ .f32 0x7F800000#32
  let main_v75 : FVec F S1536 .f32 := broadcastInDim S1536 ![] bcast_S_S1536 main_cst_28
  let main_v76 : IVec S1536 1 := cmpf .olt main_v74 main_v75
  let main_c_29 : IVec S_ 1 := constantI S_ 1 1#1
  let main_v77 : IVec S_ 1 := (fun x v => Host.reduce IntOp.andi x v reducesTo_S1536_S_d0 h_S_) main_v76 main_c_29
  let main_v78 : IVec S_ 1 := andi main_v73 main_v77
  let main_v79 : FVec F S1536 .f32 := Host.absf main_arg16
  let main_cst_30 : FVec F S_ .f32 := constant S_ .f32 0x7F800000#32
  let main_v80 : FVec F S1536 .f32 := broadcastInDim S1536 ![] bcast_S_S1536 main_cst_30
  let main_v81 : IVec S1536 1 := cmpf .olt main_v79 main_v80
  let main_c_31 : IVec S_ 1 := constantI S_ 1 1#1
  let main_v82 : IVec S_ 1 := (fun x v => Host.reduce IntOp.andi x v reducesTo_S1536_S_d0 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_arg12 main_arg16 main_arg18 main_arg19 main_arg20 main_v83 main_v84 main_cst_32

def fn_part3 {F : FTy → Type} [FloatOps F] (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S3072 .f32 := Host.absf main_arg11
  let main_cst_20 : FVec F S_ .f32 := constant S_ .f32 0x7F800000#32
  let main_v55 : FVec F S3072 .f32 := broadcastInDim S3072 ![] bcast_S_S3072 main_cst_20
  let main_v56 : IVec S3072 1 := cmpf .olt main_v54 main_v55
  let main_c_21 : IVec S_ 1 := constantI S_ 1 1#1
  let main_v57 : IVec S_ 1 := (fun x v => Host.reduce IntOp.andi x v reducesTo_S3072_S_d0 h_S_) main_v56 main_c_21
  let main_v58 : IVec S_ 1 := andi main_v53 main_v57
  let main_v59 : FVec F S3072 .f32 := Host.absf main_arg12
  let main_cst_22 : FVec F S_ .f32 := constant S_ .f32 0x7F800000#32
  let main_v60 : FVec F S3072 .f32 := broadcastInDim S3072 ![] bcast_S_S3072 main_cst_22
  let main_v61 : IVec S3072 1 := cmpf .olt main_v59 main_v60
  let main_c_23 : IVec S_ 1 := constantI S_ 1 1#1
  let main_v62 : IVec S_ 1 := (fun x v => Host.reduce IntOp.andi x v reducesTo_S3072_S_d0 h_S_) main_v61 main_c_23
  let main_v63 : IVec S_ 1 := andi main_v58 main_v62
  let main_v64 : FVec F S1536 .f32 := Host.absf main_arg13
  let main_cst_24 : FVec F S_ .f32 := constant S_ .f32 0x7F800000#32
  let main_v65 : FVec F S1536 .f32 := broadcastInDim S1536 ![] bcast_S_S1536 main_cst_24
  let main_v66 : IVec S1536 1 := cmpf .olt main_v64 main_v65
  let main_c_25 : IVec S_ 1 := constantI S_ 1 1#1
  let main_v67 : IVec S_ 1 := (fun x v => Host.reduce IntOp.andi x v reducesTo_S1536_S_d0 h_S_) main_v66 main_c_25
  fn_part4 (F := F) main_arg12 main_arg14 main_arg15 main_arg16 main_arg17 main_arg18 main_arg19 main_arg20 main_v63 main_v67

def fn_part2 {F : FTy → Type} [FloatOps F] (main_arg7 : FVec F S10x768 .f32) (main_arg8 : FVec F S10 .f32) (main_arg9 : FVec F S3072 .f32) (main_arg10 : FVec F S3072 .f32) (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v33 : IVec S_ 1) : IVec S_ 1 :=
  let main_v34 : FVec F S10x768 .f32 := Host.absf main_arg7
  let main_cst_12 : FVec F S_ .f32 := constant S_ .f32 0x7F800000#32
  let main_v35 : FVec F S10x768 .f32 := broadcastInDim S10x768 ![] bcast_S_S10x768 main_cst_12
  let main_v36 : IVec S10x768 1 := cmpf .olt main_v34 main_v35
  let main_c_13 : IVec S_ 1 := constantI S_ 1 1#1
  let main_v37 : IVec S_ 1 := (fun x v => Host.reduce IntOp.andi x v reducesTo_S10x768_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S3072 .f32 := Host.absf main_arg9
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg10
  let main_cst_18 : FVec F S_ .f32 := constant S_ .f32 0x7F800000#32
  let main_v50 : FVec F S3072 .f32 := broadcastInDim S3072 ![] bcast_S_S3072 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S1536 .f32) (main_arg5 : FVec F S768x1536 .f32) (main_arg6 : FVec F S768 .f32) (main_arg7 : FVec F S10x768 .f32) (main_arg8 : FVec F S10 .f32) (main_arg9 : FVec F S3072 .f32) (main_arg10 : FVec F S3072 .f32) (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v13 : IVec S_ 1) (main_v16 : IVec S1536x3072 1) : IVec S_ 1 :=
  let main_c_5 : IVec S_ 1 := constantI S_ 1 1#1
  let main_v17 : IVec S_ 1 := (fun x v => Host.reduce IntOp.andi x v reducesTo_S1536x3072_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S768x1536 .f32 := Host.absf main_arg5
  let main_cst_8 : FVec F S_ .f32 := constant S_ .f32 0x7F800000#32
  let main_v25 : FVec F S768x1536 .f32 := broadcastInDim S768x1536 ![] bcast_S_S768x1536 main_cst_8
  let main_v26 : IVec S768x1536 1 := cmpf .olt main_v24 main_v25
  let main_c_9 : IVec S_ 1 := constantI S_ 1 1#1
  let main_v27 : IVec S_ 1 := (fun x v => Host.reduce IntOp.andi x v reducesTo_S768x1536_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x784 .f32) (main_arg1 : FVec F S3072x784 .f32) (main_arg2 : FVec F S3072 .f32) (main_arg3 : FVec F S1536x3072 .f32) (main_arg4 : FVec F S1536 .f32) (main_arg5 : FVec F S768x1536 .f32) (main_arg6 : FVec F S768 .f32) (main_arg7 : FVec F S10x768 .f32) (main_arg8 : FVec F S10 .f32) (main_arg9 : FVec F S3072 .f32) (main_arg10 : FVec F S3072 .f32) (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S3072x784 .f32 := Host.absf main_arg1
  let main_cst_0 : FVec F S_ .f32 := constant S_ .f32 0x7F800000#32
  let main_v5 : FVec F S3072x784 .f32 := broadcastInDim S3072x784 ![] bcast_S_S3072x784 main_cst_0
  let main_v6 : IVec S3072x784 1 := cmpf .olt main_v4 main_v5
  let main_c_1 : IVec S_ 1 := constantI S_ 1 1#1
  let main_v7 : IVec S_ 1 := (fun x v => Host.reduce IntOp.andi x v reducesTo_S3072x784_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1536x3072 .f32 := Host.absf main_arg3
  let main_cst_4 : FVec F S_ .f32 := constant S_ .f32 0x7F800000#32
  let main_v15 : FVec F S1536x3072 .f32 := broadcastInDim S1536x3072 ![] bcast_S_S1536x3072 main_cst_4
  let main_v16 : IVec S1536x3072 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x784 : Shape := ⟨2, ![16384, 784]⟩
abbrev S3072x784 : Shape := ⟨2, ![3072, 784]⟩
abbrev S3072 : Shape := ⟨1, ![3072]⟩
abbrev S1536x3072 : Shape := ⟨2, ![1536, 3072]⟩
abbrev S1536 : Shape := ⟨1, ![1536]⟩
abbrev S768x1536 : Shape := ⟨2, ![768, 1536]⟩
abbrev S768 : Shape := ⟨1, ![768]⟩
abbrev S10x768 : Shape := ⟨2, ![10, 768]⟩
abbrev S10 : Shape := ⟨1, ![10]⟩
abbrev S784x3072 : Shape := ⟨2, ![784, 3072]⟩
abbrev S_ : Shape := ⟨0, ![]⟩
abbrev S1x3072 : Shape := ⟨2, ![1, 3072]⟩
abbrev S3072x1536 : Shape := ⟨2, ![3072, 1536]⟩
abbrev S1x1536 : Shape := ⟨2, ![1, 1536]⟩
abbrev S1536x768 : Shape := ⟨2, ![1536, 768]⟩
abbrev S1x768 : Shape := ⟨2, ![1, 768]⟩
abbrev S768x10 : Shape := ⟨2, ![768, 10]⟩
abbrev S1x10 : Shape := ⟨2, ![1, 10]⟩
abbrev S16384x10 : Shape := ⟨2, ![16384, 10]⟩
abbrev S256x784 : Shape := ⟨2, ![256, 784]⟩
abbrev S256x10 : Shape := ⟨2, ![256, 10]⟩
abbrev S256x3072 : Shape := ⟨2, ![256, 3072]⟩
abbrev S256x1536 : Shape := ⟨2, ![256, 1536]⟩
abbrev S256x768 : Shape := ⟨2, ![256, 768]⟩
abbrev S256 : Shape := ⟨1, ![256]⟩
abbrev S256x1 : Shape := ⟨2, ![256, 1]⟩

abbrev nBuf : Space → Nat
  | .hbm => 63
  | .vmem => 15
  | .smem => 0
  | _ => 0

abbrev bufTy : (tb : Table) → Fin (tcTables nBuf tb) → BufTy
  | .hbm, ⟨0, _⟩ => ⟨S16384x784, .f32⟩
  | .hbm, ⟨1, _⟩ => ⟨S3072x784, .f32⟩
  | .hbm, ⟨2, _⟩ => ⟨S3072, .f32⟩
  | .hbm, ⟨3, _⟩ => ⟨S1536x3072, .f32⟩
  | .hbm, ⟨4, _⟩ => ⟨S1536, .f32⟩
  | .hbm, ⟨5, _⟩ => ⟨S768x1536, .f32⟩
  | .hbm, ⟨6, _⟩ => ⟨S768, .f32⟩
  | .hbm, ⟨7, _⟩ => ⟨S10x768, .f32⟩
  | .hbm, ⟨8, _⟩ => ⟨S10, .f32⟩
  | .hbm, ⟨9, _⟩ => ⟨S3072, .f32⟩
  | .hbm, ⟨10, _⟩ => ⟨S3072, .f32⟩
  | .hbm, ⟨11, _⟩ => ⟨S3072, .f32⟩
  | .hbm, ⟨12, _⟩ => ⟨S3072, .f32⟩
  | .hbm, ⟨13, _⟩ => ⟨S1536, .f32⟩
  | .hbm, ⟨14, _⟩ => ⟨S1536, .f32⟩
  | .hbm, ⟨15, _⟩ => ⟨S1536, .f32⟩
  | .hbm, ⟨16, _⟩ => ⟨S1536, .f32⟩
  | .hbm, ⟨17, _⟩ => ⟨S768, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S3072x784, .f32⟩
  | .hbm, ⟨22, _⟩ => ⟨S784x3072, .f32⟩
  | .hbm, ⟨23, _⟩ => ⟨S784x3072, .bf16⟩
  | .hbm, ⟨24, _⟩ => ⟨S_, .f32⟩
  | .hbm, ⟨25, _⟩ => ⟨S3072, .f32⟩
  | .hbm, ⟨26, _⟩ => ⟨S3072, .f32⟩
  | .hbm, ⟨27, _⟩ => ⟨S3072, .f32⟩
  | .hbm, ⟨28, _⟩ => ⟨S3072, .f32⟩
  | .hbm, ⟨29, _⟩ => ⟨S3072, .f32⟩
  | .hbm, ⟨30, _⟩ => ⟨S3072, .f32⟩
  | .hbm, ⟨31, _⟩ => ⟨S3072, .f32⟩
  | .hbm, ⟨32, _⟩ => ⟨S1x3072, .f32⟩
  | .hbm, ⟨33, _⟩ => ⟨S1x3072, .f32⟩
  | .hbm, ⟨34, _⟩ => ⟨S1536x3072, .f32⟩
  | .hbm, ⟨35, _⟩ => ⟨S3072x1536, .f32⟩
  | .hbm, ⟨36, _⟩ => ⟨S3072x1536, .bf16⟩
  | .hbm, ⟨37, _⟩ => ⟨S_, .f32⟩
  | .hbm, ⟨38, _⟩ => ⟨S1536, .f32⟩
  | .hbm, ⟨39, _⟩ => ⟨S1536, .f32⟩
  | .hbm, ⟨40, _⟩ => ⟨S1536, .f32⟩
  | .hbm, ⟨41, _⟩ => ⟨S1536, .f32⟩
  | .hbm, ⟨42, _⟩ => ⟨S1536, .f32⟩
  | .hbm, ⟨43, _⟩ => ⟨S1536, .f32⟩
  | .hbm, ⟨44, _⟩ => ⟨S1536, .f32⟩
  | .hbm, ⟨45, _⟩ => ⟨S1x1536, .f32⟩
  | .hbm, ⟨46, _⟩ => ⟨S1x1536, .f32⟩
  | .hbm, ⟨47, _⟩ => ⟨S768x1536, .f32⟩
  | .hbm, ⟨48, _⟩ => ⟨S1536x768, .f32⟩
  | .hbm, ⟨49, _⟩ => ⟨S1536x768, .bf16⟩
  | .hbm, ⟨50, _⟩ => ⟨S_, .f32⟩
  | .hbm, ⟨51, _⟩ => ⟨S768, .f32⟩
  | .hbm, ⟨52, _⟩ => ⟨S768, .f32⟩
  | .hbm, ⟨53, _⟩ => ⟨S768, .f32⟩
  | .hbm, ⟨54, _⟩ => ⟨S768, .f32⟩
  | .hbm, ⟨55, _⟩ => ⟨S768, .f32⟩
  | .hbm, ⟨56, _⟩ => ⟨S768, .f32⟩
  | .hbm, ⟨57, _⟩ => ⟨S768, .f32⟩
  | .hbm, ⟨58, _⟩ => ⟨S1x768, .f32⟩
  | .hbm, ⟨59, _⟩ => ⟨S1x768, .f32⟩
  | .hbm, ⟨60, _⟩ => ⟨S768x10, .f32⟩
  | .hbm, ⟨61, _⟩ => ⟨S1x10, .f32⟩
  | .hbm, ⟨62, _⟩ => ⟨S16384x10, .f32⟩
  | .local _ .vmem, ⟨0, _⟩ => ⟨S256x784, .f32⟩
  | .local _ .vmem, ⟨1, _⟩ => ⟨S256x784, .f32⟩
  | .local _ .vmem, ⟨2, _⟩ => ⟨S784x3072, .bf16⟩
  | .local _ .vmem, ⟨3, _⟩ => ⟨S1x3072, .f32⟩
  | .local _ .vmem, ⟨4, _⟩ => ⟨S1x3072, .f32⟩
  | .local _ .vmem, ⟨5, _⟩ => ⟨S3072x1536, .bf16⟩
  | .local _ .vmem, ⟨6, _⟩ => ⟨S1x1536, .f32⟩
  | .local _ .vmem, ⟨7, _⟩ => ⟨S1x1536, .f32⟩
  | .local _ .vmem, ⟨8, _⟩ => ⟨S1536x768, .bf16⟩
  | .local _ .vmem, ⟨9, _⟩ => ⟨S1x768, .f32⟩
  | .local _ .vmem, ⟨10, _⟩ => ⟨S1x768, .f32⟩
  | .local _ .vmem, ⟨11, _⟩ => ⟨S768x10, .f32⟩
  | .local _ .vmem, ⟨12, _⟩ => ⟨S1x10, .f32⟩
  | .local _ .vmem, ⟨13, _⟩ => ⟨S256x10, .f32⟩
  | .local _ .vmem, ⟨14, _⟩ => ⟨S256x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S3072x784_S784x3072_1_0 : S3072x784.Transposes [1, 0] S784x3072
  bitsLt_bf16_f32 : FTy.bits .bf16 < FTy.bits .f32
  bcast_S_S3072 : S_.BroadcastsInDim S3072 (![] : Fin 0 → Fin S3072.rank)
  shapeCasts_S3072_S1x3072 : S3072.ShapeCasts S1x3072
  transposes_S1536x3072_S3072x1536_1_0 : S1536x3072.Transposes [1, 0] S3072x1536
  bcast_S_S1536 : S_.BroadcastsInDim S1536 (![] : Fin 0 → Fin S1536.rank)
  shapeCasts_S1536_S1x1536 : S1536.ShapeCasts S1x1536
  transposes_S768x1536_S1536x768_1_0 : S768x1536.Transposes [1, 0] S1536x768
  bcast_S_S768 : S_.BroadcastsInDim S768 (![] : Fin 0 → Fin S768.rank)
  shapeCasts_S768_S1x768 : S768.ShapeCasts S1x768
  transposes_S10x768_S768x10_1_0 : S10x768.Transposes [1, 0] S768x10
  shapeCasts_S10_S1x10 : S10.ShapeCasts S1x10
  inb_S256x784_S256x784_0_0 : ∀ a, (![0, 0] : Fin 2 → Nat) a + S256x784.size a ≤ S256x784.size a
  h_S256x784 : 0 < S256x784.numel
  inb_S784x3072_S784x3072_0_0 : ∀ a, (![0, 0] : Fin 2 → Nat) a + S784x3072.size a ≤ S784x3072.size a
  h_S784x3072 : 0 < S784x3072.numel
  shapeCasts_S784x3072_S784x3072 : S784x3072.ShapeCasts S784x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S3072x1536_S3072x1536_0_0 : ∀ a, (![0, 0] : Fin 2 → Nat) a + S3072x1536.size a ≤ S3072x1536.size a
  h_S3072x1536 : 0 < S3072x1536.numel
  shapeCasts_S3072x1536_S3072x1536 : S3072x1536.ShapeCasts S3072x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S256x1536 : S1x1536.Broadcasts S256x1536
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S768x10_S768x10_0_0 : ∀ a, (![0, 0] : Fin 2 → Nat) a + S768x10.size a ≤ S768x10.size a
  h_S768x10 : 0 < S768x10.numel
  shapeCasts_S768x10_S768x10 : S768x10.ShapeCasts S768x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  dot_S256x784_S784x3072_S256x3072_1_0_0_1_n_n_wf : DotDims.WF S256x784 S784x3072 S256x3072 [1] [0] [0] [1] [] []
  dot_S256x3072_S3072x1536_S256x1536_1_0_0_1_n_n_wf : DotDims.WF S256x3072 S3072x1536 S256x1536 [1] [0] [0] [1] [] []
  dot_S256x1536_S1536x768_S256x768_1_0_0_1_n_n_wf : DotDims.WF S256x1536 S1536x768 S256x768 [1] [0] [0] [1] [] []
  dot_S256x768_S768x10_S256x10_1_0_0_1_n_n_wf : DotDims.WF S256x768 S768x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S16384x784.size a
  hwx0_0 : ∀ i : grid0.Coords, EltTy.bits .f32 = 32 ∨ (Rect.block (s := S16384x784) S256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x3072.size a ≤ S784x3072.size a
  hwx0_1 : ∀ i : grid0.Coords, EltTy.bits .bf16 = 32 ∨ (Rect.block (s := S784x3072) S784x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x1536.size a ≤ S3072x1536.size a
  hwx0_4 : ∀ i : grid0.Coords, EltTy.bits .bf16 = 32 ∨ (Rect.block (s := S3072x1536) S3072x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536x768.size a ≤ S1536x768.size a
  hwx0_7 : ∀ i : grid0.Coords, EltTy.bits .bf16 = 32 ∨ (Rect.block (s := S1536x768) S1536x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x10.size a ≤ S768x10.size a
  hwx0_10 : ∀ i : grid0.Coords, EltTy.bits .f32 = 32 ∨ (Rect.block (s := S768x10) S768x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x10.size a ≤ S1x10.size a
  hwx0_11 : ∀ i : grid0.Coords, EltTy.bits .f32 = 32 ∨ (Rect.block (s := S1x10) S1x10.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x10.size a ≤ S16384x10.size a
  hwx0_12 : ∀ i : grid0.Coords, EltTy.bits .f32 = 32 ∨ (Rect.block (s := S16384x10) S256x10.size (cc0_transform_12 i) (hinb0_12 i)).WholeWords (EltTy.packing .f32)

variable [Facts₀]

def dot_S256x784_S784x3072_S256x3072_1_0_0_1_n_n : DotDims S256x784 S784x3072 S256x3072 where
  lhsContracting := [1]
  rhsContracting := [0]
  lhsNonContracting := [0]
  rhsNonContracting := [1]
  lhsBatch := []
  rhsBatch := []
  wf := dot_S256x784_S784x3072_S256x3072_1_0_0_1_n_n_wf
def dot_S256x3072_S3072x1536_S256x1536_1_0_0_1_n_n : DotDims S256x3072 S3072x1536 S256x1536 where
  lhsContracting := [1]
  rhsContracting := [0]
  lhsNonContracting := [0]
  rhsNonContracting := [1]
  lhsBatch := []
  rhsBatch := []
  wf := dot_S256x3072_S3072x1536_S256x1536_1_0_0_1_n_n_wf
def dot_S256x1536_S1536x768_S256x768_1_0_0_1_n_n : DotDims S256x1536 S1536x768 S256x768 where
  lhsContracting := [1]
  rhsContracting := [0]
  lhsNonContracting := [0]
  rhsNonContracting := [1]
  lhsBatch := []
  rhsBatch := []
  wf := dot_S256x1536_S1536x768_S256x768_1_0_0_1_n_n_wf
def dot_S256x768_S768x10_S256x10_1_0_0_1_n_n : DotDims S256x768 S768x10 S256x10 where
  lhsContracting := [1]
  rhsContracting := [0]
  lhsNonContracting := [0]
  rhsNonContracting := [1]
  lhsBatch := []
  rhsBatch := []
  wf := dot_S256x768_S768x10_S256x10_1_0_0_1_n_n_wf

abbrev win0_0 : Pipeline.Window sig grid0 :=
  Pipeline.Window.ofSpec (Memref.whole main_arg0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S784x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S3072x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1536x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S768x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38) S256x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x784 : Shape := ⟨2, ![16384, 784]⟩
abbrev S3072x784 : Shape := ⟨2, ![3072, 784]⟩
abbrev S3072 : Shape := ⟨1, ![3072]⟩
abbrev S1536x3072 : Shape := ⟨2, ![1536, 3072]⟩
abbrev S1536 : Shape := ⟨1, ![1536]⟩
abbrev S768x1536 : Shape := ⟨2, ![768, 1536]⟩
abbrev S768 : Shape := ⟨1, ![768]⟩
abbrev S10x768 : Shape := ⟨2, ![10, 768]⟩
abbrev S10 : Shape := ⟨1, ![10]⟩
abbrev S784x3072 : Shape := ⟨2, ![784, 3072]⟩
abbrev S16384x3072 : Shape := ⟨2, ![16384, 3072]⟩
abbrev S1x3072 : Shape := ⟨2, ![1, 3072]⟩
abbrev S_ : Shape := ⟨0, ![]⟩
abbrev S3072x1536 : Shape := ⟨2, ![3072, 1536]⟩
abbrev S16384x1536 : Shape := ⟨2, ![16384, 1536]⟩
abbrev S1x1536 : Shape := ⟨2, ![1, 1536]⟩
abbrev S1536x768 : Shape := ⟨2, ![1536, 768]⟩
abbrev S16384x768 : Shape := ⟨2, ![16384, 768]⟩
abbrev S1x768 : Shape := ⟨2, ![1, 768]⟩
abbrev S768x10 : Shape := ⟨2, ![768, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 143
  | .vmem => 0
  | .smem => 0
  | _ => 0

abbrev hbmTy0_0 (i : Nat) : BufTy := match i % 128 with
  | 0 => ⟨S16384x784, .f32⟩
  | 1 => ⟨S3072x784, .f32⟩
  | 2 => ⟨S3072, .f32⟩
  | 3 => ⟨S1536x3072, .f32⟩
  | 4 => ⟨S1536, .f32⟩
  | 5 => ⟨S768x1536, .f32⟩
  | 6 => ⟨S768, .f32⟩
  | 7 => ⟨S10x768, .f32⟩
  | 8 => ⟨S10, .f32⟩
  | 9 => ⟨S3072, .f32⟩
  | 10 => ⟨S3072, .f32⟩
  | 11 => ⟨S3072, .f32⟩
  | 12 => ⟨S3072, .f32⟩
  | 13 => ⟨S1536, .f32⟩
  | 14 => ⟨S1536, .f32⟩
  | 15 => ⟨S1536, .f32⟩
  | 16 => ⟨S1536, .f32⟩
  | 17 => ⟨S768, .f32⟩
  | 18 => ⟨S768, .f32⟩
  | 19 => ⟨S768, .f32⟩
  | 20 => ⟨S768, .f32⟩
  | 21 => ⟨S3072x784, .f32⟩
  | 22 => ⟨S3072x784, .f32⟩
  | 23 => ⟨S3072x784, .f32⟩
  | 24 => ⟨S784x3072, .f32⟩
  | 25 => ⟨S16384x3072, .f32⟩
  | 26 => ⟨S1x3072, .f32⟩
  | 27 => ⟨S16384x3072, .f32⟩
  | 28 => ⟨S16384x3072, .f32⟩
  | 29 => ⟨S1x3072, .f32⟩
  | 30 => ⟨S16384x3072, .f32⟩
  | 31 => ⟨S16384x3072, .f32⟩
  | 32 => ⟨S1x3072, .f32⟩
  | 33 => ⟨S16384x3072, .f32⟩
  | 34 => ⟨S16384x3072, .f32⟩
  | 35 => ⟨S_, .f32⟩
  | 36 => ⟨S3072, .f32⟩
  | 37 => ⟨S3072, .f32⟩
  | 38 => ⟨S3072, .f32⟩
  | 39 => ⟨S1x3072, .f32⟩
  | 40 => ⟨S16384x3072, .f32⟩
  | 41 => ⟨S16384x3072, .f32⟩
  | 42 => ⟨S1x3072, .f32⟩
  | 43 => ⟨S16384x3072, .f32⟩
  | 44 => ⟨S16384x3072, .f32⟩
  | 45 => ⟨S_, .f32⟩
  | 46 => ⟨S_, .f32⟩
  | 47 => ⟨S_, .f32⟩
  | 48 => ⟨S16384x3072, .f32⟩
  | 49 => ⟨S16384x3072, .f32⟩
  | 50 => ⟨S_, .f32⟩
  | 51 => ⟨S16384x3072, .f32⟩
  | 52 => ⟨S16384x3072, .f32⟩
  | 53 => ⟨S16384x3072, .f32⟩
  | 54 => ⟨S16384x3072, .f32⟩
  | 55 => ⟨S16384x3072, .f32⟩
  | 56 => ⟨S1536x3072, .f32⟩
  | 57 => ⟨S1536x3072, .f32⟩
  | 58 => ⟨S1536x3072, .f32⟩
  | 59 => ⟨S3072x1536, .f32⟩
  | 60 => ⟨S16384x1536, .f32⟩
  | 61 => ⟨S1x1536, .f32⟩
  | 62 => ⟨S16384x1536, .f32⟩
  | 63 => ⟨S16384x1536, .f32⟩
  | 64 => ⟨S1x1536, .f32⟩
  | 65 => ⟨S16384x1536, .f32⟩
  | 66 => ⟨S16384x1536, .f32⟩
  | 67 => ⟨S1x1536, .f32⟩
  | 68 => ⟨S16384x1536, .f32⟩
  | 69 => ⟨S16384x1536, .f32⟩
  | 70 => ⟨S_, .f32⟩
  | 71 => ⟨S1536, .f32⟩
  | 72 => ⟨S1536, .f32⟩
  | 73 => ⟨S1536, .f32⟩
  | 74 => ⟨S1x1536, .f32⟩
  | 75 => ⟨S16384x1536, .f32⟩
  | 76 => ⟨S16384x1536, .f32⟩
  | 77 => ⟨S1x1536, .f32⟩
  | 78 => ⟨S16384x1536, .f32⟩
  | 79 => ⟨S16384x1536, .f32⟩
  | 80 => ⟨S_, .f32⟩
  | 81 => ⟨S_, .f32⟩
  | 82 => ⟨S_, .f32⟩
  | 83 => ⟨S16384x1536, .f32⟩
  | 84 => ⟨S16384x1536, .f32⟩
  | 85 => ⟨S_, .f32⟩
  | 86 => ⟨S16384x1536, .f32⟩
  | 87 => ⟨S16384x1536, .f32⟩
  | 88 => ⟨S16384x1536, .f32⟩
  | 89 => ⟨S16384x1536, .f32⟩
  | 90 => ⟨S16384x1536, .f32⟩
  | 91 => ⟨S768x1536, .f32⟩
  | 92 => ⟨S768x1536, .f32⟩
  | 93 => ⟨S768x1536, .f32⟩
  | 94 => ⟨S1536x768, .f32⟩
  | 95 => ⟨S16384x768, .f32⟩
  | 96 => ⟨S1x768, .f32⟩
  | 97 => ⟨S16384x768, .f32⟩
  | 98 => ⟨S16384x768, .f32⟩
  | 99 => ⟨S1x768, .f32⟩
  | 100 => ⟨S16384x768, .f32⟩
  | 101 => ⟨S16384x768, .f32⟩
  | 102 => ⟨S1x768, .f32⟩
  | 103 => ⟨S16384x768, .f32⟩
  | 104 => ⟨S16384x768, .f32⟩
  | 105 => ⟨S_, .f32⟩
  | 106 => ⟨S768, .f32⟩
  | 107 => ⟨S768, .f32⟩
  | 108 => ⟨S768, .f32⟩
  | 109 => ⟨S1x768, .f32⟩
  | 110 => ⟨S16384x768, .f32⟩
  | 111 => ⟨S16384x768, .f32⟩
  | 112 => ⟨S1x768, .f32⟩
  | 113 => ⟨S16384x768, .f32⟩
  | 114 => ⟨S16384x768, .f32⟩
  | 115 => ⟨S_, .f32⟩
  | 116 => ⟨S_, .f32⟩
  | 117 => ⟨S_, .f32⟩
  | 118 => ⟨S16384x768, .f32⟩
  | 119 => ⟨S16384x768, .f32⟩
  | 120 => ⟨S_, .f32⟩
  | 121 => ⟨S16384x768, .f32⟩
  | 122 => ⟨S16384x768, .f32⟩
  | 123 => ⟨S768x10, .f32⟩
  | 124 => ⟨S16384x10, .f32⟩
  | 125 => ⟨S1x10, .f32⟩
  | 126 => ⟨S16384x10, .f32⟩
  | 127 => ⟨S16384x10, .f32⟩
  | _ => ⟨S16384x784, .f32⟩

abbrev hbmTy0_1 (i : Nat) : BufTy := match i % 128 with
  | 0 => ⟨S_, .f32⟩
  | 1 => ⟨S16384, .f32⟩
  | 2 => ⟨S_, .f32⟩
  | 3 => ⟨S16384, .f32⟩
  | 4 => ⟨S16384, .f32⟩
  | 5 => ⟨S16384x1, .f32⟩
  | 6 => ⟨S16384x10, .f32⟩
  | 7 => ⟨S16384x10, .f32⟩
  | 8 => ⟨S16384x10, .f32⟩
  | 9 => ⟨S_, .f32⟩
  | 10 => ⟨S16384, .f32⟩
  | 11 => ⟨S16384x1, .f32⟩
  | 12 => ⟨S16384x1, .f32⟩
  | 13 => ⟨S16384x10, .f32⟩
  | 14 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_3 : Ref sig .tc := ⟨.hbm, 80, rfl⟩
abbrev main_cst_4 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_5 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_6 : Ref sig .tc := ⟨.hbm, 115, rfl⟩
abbrev main_cst_7 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v83 : Ref sig .tc := ⟨.hbm, 142, rfl⟩

abbrev nD : Nat := 1
abbrev τ : Topo := Topo.v7x

variable {F : FTy → Type} [FloatOps F]

class Facts₀ : Prop where
  transposes_S3072x784_S784x3072_1_0 : S3072x784.Transposes [1, 0] S784x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  bcast_S_S3072 : S_.BroadcastsInDim S3072 (![] : Fin 0 → Fin S3072.rank)
  bcast_S_S16384x3072 : S_.BroadcastsInDim S16384x3072 (![] : Fin 0 → Fin S16384x3072.rank)
  transposes_S1536x3072_S3072x1536_1_0 : S1536x3072.Transposes [1, 0] S3072x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  bcast_S_S1536 : S_.BroadcastsInDim S1536 (![] : Fin 0 → Fin S1536.rank)
  bcast_S_S16384x1536 : S_.BroadcastsInDim S16384x1536 (![] : Fin 0 → Fin S16384x1536.rank)
  transposes_S768x1536_S1536x768_1_0 : S768x1536.Transposes [1, 0] S1536x768
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  bcast_S_S768 : S_.BroadcastsInDim S768 (![] : Fin 0 → Fin S768.rank)
  bcast_S_S16384x768 : S_.BroadcastsInDim S16384x768 (![] : Fin 0 → Fin S16384x768.rank)
  transposes_S10x768_S768x10_1_0 : S10x768.Transposes [1, 0] S768x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S16384_d1 : S16384x10.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x784_S784x3072_S16384x3072_1_0_0_1_n_n_wf : DotDims.WF S16384x784 S784x3072 S16384x3072 [1] [0] [0] [1] [] []
  dot_S16384x3072_S3072x1536_S16384x1536_1_0_0_1_n_n_wf : DotDims.WF S16384x3072 S3072x1536 S16384x1536 [1] [0] [0] [1] [] []
  dot_S16384x1536_S1536x768_S16384x768_1_0_0_1_n_n_wf : DotDims.WF S16384x1536 S1536x768 S16384x768 [1] [0] [0] [1] [] []
  dot_S16384x768_S768x10_S16384x10_1_0_0_1_n_n_wf : DotDims.WF S16384x768 S768x10 S16384x10 [1] [0] [0] [1] [] []

variable [Facts₀]

def dot_S16384x784_S784x3072_S16384x3072_1_0_0_1_n_n : DotDims S16384x784 S784x3072 S16384x3072 where
  lhsContracting := [1]
  rhsContracting := [0]
  lhsNonContracting := [0]
  rhsNonContracting := [1]
  lhsBatch := []
  rhsBatch := []
  wf := dot_S16384x784_S784x3072_S16384x3072_1_0_0_1_n_n_wf
def dot_S16384x3072_S3072x1536_S16384x1536_1_0_0_1_n_n : DotDims S16384x3072 S3072x1536 S16384x1536 where
  lhsContracting := [1]
  rhsContracting := [0]
  lhsNonContracting := [0]
  rhsNonContracting := [1]
  lhsBatch := []
  rhsBatch := []
  wf := dot_S16384x3072_S3072x1536_S16384x1536_1_0_0_1_n_n_wf
def dot_S16384x1536_S1536x768_S16384x768_1_0_0_1_n_n : DotDims S16384x1536 S1536x768 S16384x768 where
  lhsContracting := [1]
  rhsContracting := [0]
  lhsNonContracting := [0]
  rhsNonContracting := [1]
  lhsBatch := []
  rhsBatch := []
  wf := dot_S16384x1536_S1536x768_S16384x768_1_0_0_1_n_n_wf
def dot_S16384x768_S768x10_S16384x10_1_0_0_1_n_n : DotDims S16384x768 S768x10 S16384x10 where
  lhsContracting := [1]
  rhsContracting := [0]
  lhsNonContracting := [0]
  rhsNonContracting := [1]
  lhsBatch := []
  rhsBatch := []
  wf := dot_S16384x768_S768x10_S16384x10_1_0_0_1_n_n_wf

class Facts : Prop extends Facts₀ where

variable [Facts]
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.PreFacts.lean ====
/-
  What the precondition says of the twenty-one input arrays.

  The precondition is a conjunction of twenty-four statements, each of the form "every entry of an
  array satisfies a comparison": for each of the twenty-one arrays, every entry has absolute value
  below +∞; and for each of the three variance arrays, every entry is ≥ 0. Read over the extended
  reals [-∞, +∞], the absolute value of a is max a (-a), which is +∞ at both infinities and |r| at a
  real number r; so "|a| < +∞" holds exactly when a is a real number. For a real number r the
  comparison 0 ≤ r between extended reals is the comparison between real numbers. Hence the
  hypothesis gives: every entry of each of the twenty-one arrays is a real number, and every entry of
  each of the three variance arrays is a real number that is not negative.

  The conjunction is a left-nested chain of one-bit "and"s of one-bit words; each word is the "and" of
  all the entries of a one-bit array of comparison results (starting from 1), so it is 1 exactly when
  every comparison holds.
-/
import proofs.«409394_j3582002725505_3_alg».proof.Pre_finite_inputs
import proofs.«409394_j3582002725505_3_alg».proof.Proof.Gen.Pre_finite_inputs
import proofs.«409394_j3582002725505_3_alg».proof.Proof.LibIdealFinite
import Idealize.ShloMosaic.Lib.ReduceAll
import Idealize.ShloMosaic.Lib.ValueIdx

namespace Cert.PreFacts

open Idealize.ShloMosaic Cert.Pre_finite_inputs

/-- The shape with no axes has exactly one index (the empty tuple of coordinates). -/
instance : Subsingleton S_.Idx := ⟨fun _ _ => funext fun d => d.elim0⟩

/-- The one-bit word of a truth value is 1 only when the value is true. -/
theorem eq_true_of_ofBool_eq_one {b : Bool} (h : BitVec.ofBool b = 1#1) : b = true := by
  cases b
  · exact absurd h (by decide)
  · rfl

/-- The comparison "a < b" of extended reals, read back from its one-bit result. -/
theorem lt_of_cmp_olt {a b : EReal} (h : Ideal.cmp .olt a b = 1#1) : a < b := by
  have h' := eq_true_of_ofBool_eq_one h
  simpa using h'

/-- The comparison "a ≥ b" of extended reals, read back from its one-bit result. -/
theorem le_of_cmp_oge {a b : EReal} (h : Ideal.cmp .oge a b = 1#1) : b ≤ a := by
  have h' := eq_true_of_ofBool_eq_one h
  simpa using h'

/-- An extended real whose absolute value max a (-a) is below +∞ is a real number: at -∞ and at +∞
    that maximum is +∞ itself. -/
theorem isFin_of_abs_lt_top (a : EReal) (h : max a (-a) < ⊤) : IdealFinite.IsFin a := by
  induction a using EReal.rec with
  | bot => exact absurd h (by simp)
  | coe r => exact ⟨r, rfl⟩
  | top => exact absurd h (by simp)

/-- A one-bit "and" of two scalar one-bit arrays is 1 at the one index only if both are. -/
theorem andi_ix0 {a b : IVec S_ 1} (h : andi a b ValueIdx.ix0 = 1#1) :
    a ValueIdx.ix0 = 1#1 ∧ b ValueIdx.ix0 = 1#1 :=
  IntOp.andi_eq_one.1 h

/-- "Every entry of x has absolute value below +∞", for an array x of any shape: then every entry of
    x is a real number. The comparison's right-hand side is the constant +∞ repeated over the shape. -/
theorem allFin_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
        (cmpf (F := Ideal) .olt (Host.absf x) (broadcastInDim S ![] hb (constant S_ .f32 0x7F800000#32)))
        (constantI S_ 1 1#1) hr hu ValueIdx.ix0 = 1#1) :
    IdealFinite.AllFin x := fun i => by
  have h1 : Ideal.cmp .olt (max (x i) (-(x i))) (Ideal.ofBits .f32 0x7F800000#32) = 1#1 :=
    Host.reduce_andi_all _ _ hr hu ValueIdx.ix0 e i
  rw [IdealFinite.ofBits_7F800000] at h1
  exact isFin_of_abs_lt_top _ (lt_of_cmp_olt h1)

/-- "Every entry of x is ≥ 0", for an array x of real numbers of any shape: then every entry of x is a
    real number that is not negative. The comparison's right-hand side is the constant 0 repeated over
    the shape. -/
theorem allNonneg_of_all {S : Shape} {axes : List (Fin S.rank)} (x : FVec Ideal S .f32)
    (hb : S_.BroadcastsInDim S (![] : Fin 0 → Fin S.rank)) (hr : S.ReducesTo axes S_) (hu : 0 < S_.numel)
    (hx : IdealFinite.AllFin x)
    (e : Host.reduce IntOp.andi
        (cmpf (F := Ideal) .oge x (broadcastInDim S ![] hb (constant S_ .f32 0x00000000#32)))
        (constantI S_ 1 1#1) hr hu ValueIdx.ix0 = 1#1) :
    IdealFinite.AllNonneg x := fun i => by
  have h1 : Ideal.cmp .oge (x i) (Ideal.ofBits .f32 0x00000000#32) = 1#1 :=
    Host.reduce_andi_all _ _ hr hu ValueIdx.ix0 e i
  rw [IdealFinite.ofBits_00000000] at h1
  have h2 : ((0 : ℝ) : EReal) ≤ x i := le_of_cmp_oge h1
  obtain ⟨r, hr'⟩ := hx i
  rw [hr'] at h2
  exact ⟨r, EReal.coe_le_coe_iff.1 h2, hr'⟩

/-- The precondition, read: all twenty-one arrays consist of real numbers, and the three variance
    arrays of real numbers that are not negative. -/
theorem of_pre
    (x0 : FVec Ideal S16384x784 .f32) (x1 : FVec Ideal S3072x784 .f32) (x2 : FVec Ideal S3072 .f32)
    (x3 : FVec Ideal S1536x3072 .f32) (x4 : FVec Ideal S1536 .f32) (x5 : FVec Ideal S768x1536 .f32)
    (x6 : FVec Ideal S768 .f32) (x7 : FVec Ideal S10x768 .f32) (x8 : FVec Ideal S10 .f32)
    (x9 : FVec Ideal S3072 .f32) (x10 : FVec Ideal S3072 .f32) (x11 : FVec Ideal S3072 .f32)
    (x12 : FVec Ideal S3072 .f32) (x13 : FVec Ideal S1536 .f32) (x14 : FVec Ideal S1536 .f32)
    (x15 : FVec Ideal S1536 .f32) (x16 : FVec Ideal S1536 .f32) (x17 : FVec Ideal S768 .f32)
    (x18 : FVec Ideal S768 .f32) (x19 : FVec Ideal S768 .f32) (x20 : FVec Ideal S768 .f32)
    (h : Cert.Pre_finite_inputs.fn (F := Ideal) x0 x1 x2 x3 x4 x5 x6 x7 x8 x9 x10 x11 x12 x13 x14 x15 x16 x17 x18 x19 x20 = fun _ => 1#1) :
      IdealFinite.AllFin x0 ∧ IdealFinite.AllFin x1 ∧ IdealFinite.AllFin x2 ∧ IdealFinite.AllFin x3 ∧
      IdealFinite.AllFin x4 ∧ IdealFinite.AllFin x5 ∧ IdealFinite.AllFin x6 ∧ IdealFinite.AllFin x7 ∧
      IdealFinite.AllFin x8 ∧ IdealFinite.AllFin x9 ∧ IdealFinite.AllFin x10 ∧ IdealFinite.AllFin x11 ∧
      IdealFinite.AllFin x12 ∧ IdealFinite.AllFin x13 ∧ IdealFinite.AllFin x14 ∧ IdealFinite.AllFin x15 ∧
      IdealFinite.AllFin x16 ∧ IdealFinite.AllFin x17 ∧ IdealFinite.AllFin x18 ∧ IdealFinite.AllFin x19 ∧
      IdealFinite.AllFin x20 ∧
      IdealFinite.AllNonneg x12 ∧ IdealFinite.AllNonneg x16 ∧ IdealFinite.AllNonneg x20 := by
  -- the result has one index; there the whole conjunction is 1
  have h0 := congrFun h ValueIdx.ix0
  dsimp only [Cert.Pre_finite_inputs.fn, fn_part1, fn_part2, fn_part3, fn_part4, fn_part5, fn_part6] at h0
  -- split the chain of "and"s, outermost first
  obtain ⟨h0, n20⟩ := andi_ix0 h0
  obtain ⟨h0, n16⟩ := andi_ix0 h0
  obtain ⟨h0, n12⟩ := andi_ix0 h0
  obtain ⟨h0, f20⟩ := andi_ix0 h0
  obtain ⟨h0, f19⟩ := andi_ix0 h0
  obtain ⟨h0, f18⟩ := andi_ix0 h0
  obtain ⟨h0, f17⟩ := andi_ix0 h0
  obtain ⟨h0, f16⟩ := andi_ix0 h0
  obtain ⟨h0, f15⟩ := andi_ix0 h0
  obtain ⟨h0, f14⟩ := andi_ix0 h0
  obtain ⟨h0, f13⟩ := andi_ix0 h0
  obtain ⟨h0, f12⟩ := andi_ix0 h0
  obtain ⟨h0, f11⟩ := andi_ix0 h0
  obtain ⟨h0, f10⟩ := andi_ix0 h0
  obtain ⟨h0, f9⟩ := andi_ix0 h0
  obtain ⟨h0, f8⟩ := andi_ix0 h0
  obtain ⟨h0, f7⟩ := andi_ix0 h0
  obtain ⟨h0, f6⟩ := andi_ix0 h0
  obtain ⟨h0, f5⟩ := andi_ix0 h0
  obtain ⟨h0, f4⟩ := andi_ix0 h0
  obtain ⟨h0, f3⟩ := andi_ix0 h0
  obtain ⟨h0, f2⟩ := andi_ix0 h0
  obtain ⟨f0, f1⟩ := andi_ix0 h0
  -- each conjunct about absolute values gives an array of real numbers
  have a0 : IdealFinite.AllFin x0 := allFin_of_all x0 _ _ _ f0
  have a1 : IdealFinite.AllFin x1 := allFin_of_all x1 _ _ _ f1
  have a2 : IdealFinite.AllFin x2 := allFin_of_all x2 _ _ _ f2
  have a3 : IdealFinite.AllFin x3 := allFin_of_all x3 _ _ _ f3
  have a4 : IdealFinite.AllFin x4 := allFin_of_all x4 _ _ _ f4
  have a5 : IdealFinite.AllFin x5 := allFin_of_all x5 _ _ _ f5
  have a6 : IdealFinite.AllFin x6 := allFin_of_all x6 _ _ _ f6
  have a7 : IdealFinite.AllFin x7 := allFin_of_all x7 _ _ _ f7
  have a8 : IdealFinite.AllFin x8 := allFin_of_all x8 _ _ _ f8
  have a9 : IdealFinite.AllFin x9 := allFin_of_all x9 _ _ _ f9
  have a10 : IdealFinite.AllFin x10 := allFin_of_all x10 _ _ _ f10
  have a11 : IdealFinite.AllFin x11 := allFin_of_all x11 _ _ _ f11
  have a12 : IdealFinite.AllFin x12 := allFin_of_all x12 _ _ _ f12
  have a13 : IdealFinite.AllFin x13 := allFin_of_all x13 _ _ _ f13
  have a14 : IdealFinite.AllFin x14 := allFin_of_all x14 _ _ _ f14
  have a15 : IdealFinite.AllFin x15 := allFin_of_all x15 _ _ _ f15
  have a16 : IdealFinite.AllFin x16 := allFin_of_all x16 _ _ _ f16
  have a17 : IdealFinite.AllFin x17 := allFin_of_all x17 _ _ _ f17
  have a18 : IdealFinite.AllFin x18 := allFin_of_all x18 _ _ _ f18
  have a19 : IdealFinite.AllFin x19 := allFin_of_all x19 _ _ _ f19
  have a20 : IdealFinite.AllFin x20 := allFin_of_all x20 _ _ _ f20
  exact ⟨a0, a1, a2, a3, a4, a5, a6, a7, a8, a9, a10, a11, a12, a13, a14, a15, a16, a17, a18, a19, a20,
    allNonneg_of_all x12 _ _ _ a12 n12, allNonneg_of_all x16 _ _ _ a16 n16, allNonneg_of_all x20 _ _ _ a20 n20⟩

end Cert.PreFacts
-- ==== Proof.KernelProducts.lean ====
/-
  The four matrix products of the kernel body, read at one entry.

  Each is a plain product of a block of 256 rows with a whole matrix, contracted over the block's columns and the
  matrix's rows, added into a zero accumulator. Over the extended reals the product's entry `(p, j)` is the sum over
  the contracted coordinate `k` of `l (p, k) · r (k, j)`: the contraction's index set has one axis, so the sum over it is
  a sum over `k`, and the operand indices at `(p, j)` and `k` are `(p, k)` on the left and `(k, j)` on the right.
-/
import proofs.«409394_j3582002725505_3_alg».proof.Proof.Gen.KernelIdeal
import Idealize.ShloMosaic.Lib.ValueIdx
import Idealize.ShloMosaic.PureOps.Ideal.Laws

noncomputable section

namespace Cert.KernelProducts

open Cert.KernelIdeal Cert.KernelIdeal.Gen Idealize.ShloMosaic Idealize.ShloMosaic.ValueIdx
open scoped BigOperators

/-! ### The first product: a 256 × 784 block against a 784 × 3072 matrix -/

theorem lhs1_0 (i : S256x3072.Idx) (q : dot_S256x784_S784x3072_S256x3072_1_0_0_1_n_n.contr.Idx) :
    (dot_S256x784_S784x3072_S256x3072_1_0_0_1_n_n.lhsIdx i q 0).val = (i 0).val := by
  unfold DotDims.lhsIdx
  rw [dif_neg (show ¬(0 : Fin S256x784.rank) ∈ dot_S256x784_S784x3072_S256x3072_1_0_0_1_n_n.lhsBatch by decide), dif_pos (show (0 : Fin S256x784.rank) ∈ dot_S256x784_S784x3072_S256x3072_1_0_0_1_n_n.lhsNonContracting by decide)]
  rfl
theorem lhs1_1 (i : S256x3072.Idx) (q : dot_S256x784_S784x3072_S256x3072_1_0_0_1_n_n.contr.Idx) :
    (dot_S256x784_S784x3072_S256x3072_1_0_0_1_n_n.lhsIdx i q 1).val = (q ⟨0, by decide⟩).val :=
  dot_S256x784_S784x3072_S256x3072_1_0_0_1_n_n.lhsIdx_val_of_single rfl i q
theorem rhs1_0 (i : S256x3072.Idx) (q : dot_S256x784_S784x3072_S256x3072_1_0_0_1_n_n.contr.Idx) :
    (dot_S256x784_S784x3072_S256x3072_1_0_0_1_n_n.rhsIdx i q 0).val = (q ⟨0, by decide⟩).val :=
  dot_S256x784_S784x3072_S256x3072_1_0_0_1_n_n.rhsIdx_val_of_single rfl i q
theorem rhs1_1 (i : S256x3072.Idx) (q : dot_S256x784_S784x3072_S256x3072_1_0_0_1_n_n.contr.Idx) :
    (dot_S256x784_S784x3072_S256x3072_1_0_0_1_n_n.rhsIdx i q 1).val = (i 1).val := by
  unfold DotDims.rhsIdx
  rw [dif_neg (show ¬(1 : Fin S784x3072.rank) ∈ dot_S256x784_S784x3072_S256x3072_1_0_0_1_n_n.rhsBatch by decide), dif_pos (show (1 : Fin S784x3072.rank) ∈ dot_S256x784_S784x3072_S256x3072_1_0_0_1_n_n.rhsNonContracting by decide)]
  rfl

/-- Into a zero accumulator, entry `(p, j)` of the product is `∑ k, l (p, k) · r (k, j)`. -/
theorem matmul1_apply (l : FVec Ideal S256x784 .bf16) (r : FVec Ideal S784x3072 .bf16) (p : Fin 256) (j : Fin 3072) :
    FloatOps.matmul dot_S256x784_S784x3072_S256x3072_1_0_0_1_n_n none l r (constant S256x3072 .f32 0x00000000#32) (ix2 p j)
      = ∑ k : Fin 784, l (ix2 p k) * r (ix2 k j) := by
  rw [Ideal.matmul_constant_zero_apply, ← Equiv.sum_comp (ValueIdx.contrEquiv1 dot_S256x784_S784x3072_S256x3072_1_0_0_1_n_n 784 rfl rfl).symm]
  refine Finset.sum_congr rfl fun k _ => ?_
  have hk := ValueIdx.contrEquiv1_symm_val dot_S256x784_S784x3072_S256x3072_1_0_0_1_n_n 784 rfl rfl k
  have el : dot_S256x784_S784x3072_S256x3072_1_0_0_1_n_n.lhsIdx (ix2 p j) ((ValueIdx.contrEquiv1 dot_S256x784_S784x3072_S256x3072_1_0_0_1_n_n 784 rfl rfl).symm k) = ix2 p k := funext fun a => Fin.ext (by
    match a with
    | ⟨0, _⟩ => exact lhs1_0 _ _
    | ⟨1, _⟩ => exact (lhs1_1 _ _).trans hk)
  have er : dot_S256x784_S784x3072_S256x3072_1_0_0_1_n_n.rhsIdx (ix2 p j) ((ValueIdx.contrEquiv1 dot_S256x784_S784x3072_S256x3072_1_0_0_1_n_n 784 rfl rfl).symm k) = ix2 k j := funext fun a => Fin.ext (by
    match a with
    | ⟨0, _⟩ => exact (rhs1_0 _ _).trans hk
    | ⟨1, _⟩ => exact rhs1_1 _ _)
  rw [el, er]

/-! ### The second product: a 256 × 3072 block against a 3072 × 1536 matrix -/

theorem lhs2_0 (i : S256x1536.Idx) (q : dot_S256x3072_S3072x1536_S256x1536_1_0_0_1_n_n.contr.Idx) :
    (dot_S256x3072_S3072x1536_S256x1536_1_0_0_1_n_n.lhsIdx i q 0).val = (i 0).val := by
  unfold DotDims.lhsIdx
  rw [dif_neg (show ¬(0 : Fin S256x3072.rank) ∈ dot_S256x3072_S3072x1536_S256x1536_1_0_0_1_n_n.lhsBatch by decide), dif_pos (show (0 : Fin S256x3072.rank) ∈ dot_S256x3072_S3072x1536_S256x1536_1_0_0_1_n_n.lhsNonContracting by decide)]
  rfl
theorem lhs2_1 (i : S256x1536.Idx) (q : dot_S256x3072_S3072x1536_S256x1536_1_0_0_1_n_n.contr.Idx) :
    (dot_S256x3072_S3072x1536_S256x1536_1_0_0_1_n_n.lhsIdx i q 1).val = (q ⟨0, by decide⟩).val :=
  dot_S256x3072_S3072x1536_S256x1536_1_0_0_1_n_n.lhsIdx_val_of_single rfl i q
theorem rhs2_0 (i : S256x1536.Idx) (q : dot_S256x3072_S3072x1536_S256x1536_1_0_0_1_n_n.contr.Idx) :
    (dot_S256x3072_S3072x1536_S256x1536_1_0_0_1_n_n.rhsIdx i q 0).val = (q ⟨0, by decide⟩).val :=
  dot_S256x3072_S3072x1536_S256x1536_1_0_0_1_n_n.rhsIdx_val_of_single rfl i q
theorem rhs2_1 (i : S256x1536.Idx) (q : dot_S256x3072_S3072x1536_S256x1536_1_0_0_1_n_n.contr.Idx) :
    (dot_S256x3072_S3072x1536_S256x1536_1_0_0_1_n_n.rhsIdx i q 1).val = (i 1).val := by
  unfold DotDims.rhsIdx
  rw [dif_neg (show ¬(1 : Fin S3072x1536.rank) ∈ dot_S256x3072_S3072x1536_S256x1536_1_0_0_1_n_n.rhsBatch by decide), dif_pos (show (1 : Fin S3072x1536.rank) ∈ dot_S256x3072_S3072x1536_S256x1536_1_0_0_1_n_n.rhsNonContracting by decide)]
  rfl

/-- Into a zero accumulator, entry `(p, j)` of the product is `∑ k, l (p, k) · r (k, j)`. -/
theorem matmul2_apply (l : FVec Ideal S256x3072 .bf16) (r : FVec Ideal S3072x1536 .bf16) (p : Fin 256) (j : Fin 1536) :
    FloatOps.matmul dot_S256x3072_S3072x1536_S256x1536_1_0_0_1_n_n none l r (constant S256x1536 .f32 0x00000000#32) (ix2 p j)
      = ∑ k : Fin 3072, l (ix2 p k) * r (ix2 k j) := by
  rw [Ideal.matmul_constant_zero_apply, ← Equiv.sum_comp (ValueIdx.contrEquiv1 dot_S256x3072_S3072x1536_S256x1536_1_0_0_1_n_n 3072 rfl rfl).symm]
  refine Finset.sum_congr rfl fun k _ => ?_
  have hk := ValueIdx.contrEquiv1_symm_val dot_S256x3072_S3072x1536_S256x1536_1_0_0_1_n_n 3072 rfl rfl k
  have el : dot_S256x3072_S3072x1536_S256x1536_1_0_0_1_n_n.lhsIdx (ix2 p j) ((ValueIdx.contrEquiv1 dot_S256x3072_S3072x1536_S256x1536_1_0_0_1_n_n 3072 rfl rfl).symm k) = ix2 p k := funext fun a => Fin.ext (by
    match a with
    | ⟨0, _⟩ => exact lhs2_0 _ _
    | ⟨1, _⟩ => exact (lhs2_1 _ _).trans hk)
  have er : dot_S256x3072_S3072x1536_S256x1536_1_0_0_1_n_n.rhsIdx (ix2 p j) ((ValueIdx.contrEquiv1 dot_S256x3072_S3072x1536_S256x1536_1_0_0_1_n_n 3072 rfl rfl).symm k) = ix2 k j := funext fun a => Fin.ext (by
    match a with
    | ⟨0, _⟩ => exact (rhs2_0 _ _).trans hk
    | ⟨1, _⟩ => exact rhs2_1 _ _)
  rw [el, er]

/-! ### The third product: a 256 × 1536 block against a 1536 × 768 matrix -/

theorem lhs3_0 (i : S256x768.Idx) (q : dot_S256x1536_S1536x768_S256x768_1_0_0_1_n_n.contr.Idx) :
    (dot_S256x1536_S1536x768_S256x768_1_0_0_1_n_n.lhsIdx i q 0).val = (i 0).val := by
  unfold DotDims.lhsIdx
  rw [dif_neg (show ¬(0 : Fin S256x1536.rank) ∈ dot_S256x1536_S1536x768_S256x768_1_0_0_1_n_n.lhsBatch by decide), dif_pos (show (0 : Fin S256x1536.rank) ∈ dot_S256x1536_S1536x768_S256x768_1_0_0_1_n_n.lhsNonContracting by decide)]
  rfl
theorem lhs3_1 (i : S256x768.Idx) (q : dot_S256x1536_S1536x768_S256x768_1_0_0_1_n_n.contr.Idx) :
    (dot_S256x1536_S1536x768_S256x768_1_0_0_1_n_n.lhsIdx i q 1).val = (q ⟨0, by decide⟩).val :=
  dot_S256x1536_S1536x768_S256x768_1_0_0_1_n_n.lhsIdx_val_of_single rfl i q
theorem rhs3_0 (i : S256x768.Idx) (q : dot_S256x1536_S1536x768_S256x768_1_0_0_1_n_n.contr.Idx) :
    (dot_S256x1536_S1536x768_S256x768_1_0_0_1_n_n.rhsIdx i q 0).val = (q ⟨0, by decide⟩).val :=
  dot_S256x1536_S1536x768_S256x768_1_0_0_1_n_n.rhsIdx_val_of_single rfl i q
theorem rhs3_1 (i : S256x768.Idx) (q : dot_S256x1536_S1536x768_S256x768_1_0_0_1_n_n.contr.Idx) :
    (dot_S256x1536_S1536x768_S256x768_1_0_0_1_n_n.rhsIdx i q 1).val = (i 1).val := by
  unfold DotDims.rhsIdx
  rw [dif_neg (show ¬(1 : Fin S1536x768.rank) ∈ dot_S256x1536_S1536x768_S256x768_1_0_0_1_n_n.rhsBatch by decide), dif_pos (show (1 : Fin S1536x768.rank) ∈ dot_S256x1536_S1536x768_S256x768_1_0_0_1_n_n.rhsNonContracting by decide)]
  rfl

/-- Into a zero accumulator, entry `(p, j)` of the product is `∑ k, l (p, k) · r (k, j)`. -/
theorem matmul3_apply (l : FVec Ideal S256x1536 .bf16) (r : FVec Ideal S1536x768 .bf16) (p : Fin 256) (j : Fin 768) :
    FloatOps.matmul dot_S256x1536_S1536x768_S256x768_1_0_0_1_n_n none l r (constant S256x768 .f32 0x00000000#32) (ix2 p j)
      = ∑ k : Fin 1536, l (ix2 p k) * r (ix2 k j) := by
  rw [Ideal.matmul_constant_zero_apply, ← Equiv.sum_comp (ValueIdx.contrEquiv1 dot_S256x1536_S1536x768_S256x768_1_0_0_1_n_n 1536 rfl rfl).symm]
  refine Finset.sum_congr rfl fun k _ => ?_
  have hk := ValueIdx.contrEquiv1_symm_val dot_S256x1536_S1536x768_S256x768_1_0_0_1_n_n 1536 rfl rfl k
  have el : dot_S256x1536_S1536x768_S256x768_1_0_0_1_n_n.lhsIdx (ix2 p j) ((ValueIdx.contrEquiv1 dot_S256x1536_S1536x768_S256x768_1_0_0_1_n_n 1536 rfl rfl).symm k) = ix2 p k := funext fun a => Fin.ext (by
    match a with
    | ⟨0, _⟩ => exact lhs3_0 _ _
    | ⟨1, _⟩ => exact (lhs3_1 _ _).trans hk)
  have er : dot_S256x1536_S1536x768_S256x768_1_0_0_1_n_n.rhsIdx (ix2 p j) ((ValueIdx.contrEquiv1 dot_S256x1536_S1536x768_S256x768_1_0_0_1_n_n 1536 rfl rfl).symm k) = ix2 k j := funext fun a => Fin.ext (by
    match a with
    | ⟨0, _⟩ => exact (rhs3_0 _ _).trans hk
    | ⟨1, _⟩ => exact rhs3_1 _ _)
  rw [el, er]

/-! ### The fourth product: a 256 × 768 block against a 768 × 10 matrix -/

theorem lhs4_0 (i : S256x10.Idx) (q : dot_S256x768_S768x10_S256x10_1_0_0_1_n_n.contr.Idx) :
    (dot_S256x768_S768x10_S256x10_1_0_0_1_n_n.lhsIdx i q 0).val = (i 0).val := by
  unfold DotDims.lhsIdx
  rw [dif_neg (show ¬(0 : Fin S256x768.rank) ∈ dot_S256x768_S768x10_S256x10_1_0_0_1_n_n.lhsBatch by decide), dif_pos (show (0 : Fin S256x768.rank) ∈ dot_S256x768_S768x10_S256x10_1_0_0_1_n_n.lhsNonContracting by decide)]
  rfl
theorem lhs4_1 (i : S256x10.Idx) (q : dot_S256x768_S768x10_S256x10_1_0_0_1_n_n.contr.Idx) :
    (dot_S256x768_S768x10_S256x10_1_0_0_1_n_n.lhsIdx i q 1).val = (q ⟨0, by decide⟩).val :=
  dot_S256x768_S768x10_S256x10_1_0_0_1_n_n.lhsIdx_val_of_single rfl i q
theorem rhs4_0 (i : S256x10.Idx) (q : dot_S256x768_S768x10_S256x10_1_0_0_1_n_n.contr.Idx) :
    (dot_S256x768_S768x10_S256x10_1_0_0_1_n_n.rhsIdx i q 0).val = (q ⟨0, by decide⟩).val :=
  dot_S256x768_S768x10_S256x10_1_0_0_1_n_n.rhsIdx_val_of_single rfl i q
theorem rhs4_1 (i : S256x10.Idx) (q : dot_S256x768_S768x10_S256x10_1_0_0_1_n_n.contr.Idx) :
    (dot_S256x768_S768x10_S256x10_1_0_0_1_n_n.rhsIdx i q 1).val = (i 1).val := by
  unfold DotDims.rhsIdx
  rw [dif_neg (show ¬(1 : Fin S768x10.rank) ∈ dot_S256x768_S768x10_S256x10_1_0_0_1_n_n.rhsBatch by decide), dif_pos (show (1 : Fin S768x10.rank) ∈ dot_S256x768_S768x10_S256x10_1_0_0_1_n_n.rhsNonContracting by decide)]
  rfl

/-- Into a zero accumulator, entry `(p, j)` of the product is `∑ k, l (p, k) · r (k, j)`. -/
theorem matmul4_apply (l : FVec Ideal S256x768 .f32) (r : FVec Ideal S768x10 .f32) (p : Fin 256) (j : Fin 10) :
    FloatOps.matmul dot_S256x768_S768x10_S256x10_1_0_0_1_n_n (some .fp32) l r (constant S256x10 .f32 0x00000000#32) (ix2 p j)
      = ∑ k : Fin 768, l (ix2 p k) * r (ix2 k j) := by
  rw [Ideal.matmul_constant_zero_apply, ← Equiv.sum_comp (ValueIdx.contrEquiv1 dot_S256x768_S768x10_S256x10_1_0_0_1_n_n 768 rfl rfl).symm]
  refine Finset.sum_congr rfl fun k _ => ?_
  have hk := ValueIdx.contrEquiv1_symm_val dot_S256x768_S768x10_S256x10_1_0_0_1_n_n 768 rfl rfl k
  have el : dot_S256x768_S768x10_S256x10_1_0_0_1_n_n.lhsIdx (ix2 p j) ((ValueIdx.contrEquiv1 dot_S256x768_S768x10_S256x10_1_0_0_1_n_n 768 rfl rfl).symm k) = ix2 p k := funext fun a => Fin.ext (by
    match a with
    | ⟨0, _⟩ => exact lhs4_0 _ _
    | ⟨1, _⟩ => exact (lhs4_1 _ _).trans hk)
  have er : dot_S256x768_S768x10_S256x10_1_0_0_1_n_n.rhsIdx (ix2 p j) ((ValueIdx.contrEquiv1 dot_S256x768_S768x10_S256x10_1_0_0_1_n_n 768 rfl rfl).symm k) = ix2 k j := funext fun a => Fin.ext (by
    match a with
    | ⟨0, _⟩ => exact (rhs4_0 _ _).trans hk
    | ⟨1, _⟩ => exact rhs4_1 _ _)
  rw [el, er]

end Cert.KernelProducts

end
-- ==== Proof.NetSpec.lean ====
/-
  The network both programs compute, on ONE input row, over the extended reals.

  A binarized multi-layer perceptron in evaluation mode. Each of the three hidden layers takes a row `a`,
  forms the pre-activation `acc j = ∑ k, a k · sign (w j k)` against the SIGNS of a weight matrix, applies the
  batch normalisation `g j · ((acc j + b j) − m j) · rsqrt (v j + ε) + be j` and clips the result to [−1, 1]; the
  next layer reads the SIGNS of those clipped values. The last layer is a plain affine map `∑ k, h k · w c k + b c`
  followed by a log-softmax over the ten classes: `(z c − M) − log ∑ c', exp (z c' − M)` with `M` the row's maximum.

  One program spells the batch normalisation as above (`bnRef`); the other folds the bias and the statistics
  into one scale `s j = g j · rsqrt (v j + ε)` and one shift `t j = s j · (b j − m j) + be j` and computes
  `acc j · s j + t j` (`bnFold`). Over the reals the two agree by distributivity. Over the EXTENDED reals
  distributivity fails at the infinities, so the agreement needs every quantity to be a real number; the one
  place an infinity could arise from real inputs is `rsqrt (v j + ε)`, which is `+∞` at `v j + ε = 0`. With the
  variances `v j ≥ 0` and `ε > 0` the argument is a positive real and `rsqrt` of it a positive real.

  One program also spells "the sign of x" as `x + (sign x − x)` (a straight-through estimator read forwards):
  for a real `x` that is `sign x`; the clipped values are always real, and the weights are real by hypothesis.
-/
import Idealize.ShloMosaic.PureOps.Ideal
import Idealize.ShloMosaic.PureOps.Ideal.Laws
import Idealize.ShloMosaic.PureOps.IdealRules
import proofs.«409394_j3582002725505_3_alg».proof.Proof.LibIdealFinite

noncomputable section

namespace Cert.NetSpec

open Idealize.ShloMosaic IdealFinite
open scoped BigOperators

/-! ## The four literals, kept as the words both programs print -/

/-- 1.0 -/
abbrev one : EReal := Ideal.ofBits .f32 0x3F800000#32
/-- -1.0 -/
abbrev negOne : EReal := Ideal.ofBits .f32 0xBF800000#32
/-- the binary32 number nearest 1e-5 -/
abbrev eps : EReal := Ideal.ofBits .f32 0x3727C5AC#32
/-- -∞ -/
abbrev negInf : EReal := Ideal.ofBits .f32 0xFF800000#32

theorem one_eq : one = ((1 : ℝ) : EReal) := ofBits_3F800000

theorem negOne_eq : negOne = ((-1 : ℝ) : EReal) := by
  show Ideal.ofBits .f32 0xBF800000#32 = _
  simp [Ideal.ofBits, Ideal.ieee, -EReal.coe_mul]; norm_num

theorem eps_pos : ∃ e : ℝ, 0 < e ∧ eps = (e : EReal) := ofBits_3727C5AC_pos

theorem negInf_eq : negInf = ⊥ := by
  show Ideal.ofBits .f32 0xFF800000#32 = _
  simp [Ideal.ofBits, Ideal.ieee]

/-! ## Scalar pieces -/

/-- Clipping to [−1, 1], as both programs write it: the smaller of 1 and the larger of −1 and `y`. -/
def clip (y : EReal) : EReal := min one (max negOne y)

/-- A clipped value is a real number, whatever was clipped (an infinity clips to ±1). -/
theorem isFin_clip (y : EReal) : IsFin (clip y) := by
  unfold clip
  rw [one_eq, negOne_eq]
  induction y using EReal.rec with
  | bot =>
    refine ⟨-1, ?_⟩
    rw [max_eq_left (bot_le : (⊥ : EReal) ≤ _), min_eq_right (EReal.coe_le_coe_iff.2 (by norm_num))]
  | top =>
    refine ⟨1, ?_⟩
    rw [max_eq_right (le_top : _ ≤ (⊤ : EReal)), min_eq_left (le_top : _ ≤ (⊤ : EReal))]
  | coe r =>
    exact ⟨min 1 (max (-1) r), by
      rw [EReal.coe_strictMono.monotone.map_min, EReal.coe_strictMono.monotone.map_max]⟩

/-- The sign of an extended real is −1, 0 or 1: a real number. -/
theorem isFin_sign (a : EReal) : IsFin (Ideal.sign a) := by
  induction a using EReal.rec with
  | bot => exact ⟨-1, by rw [Ideal.sign_bot]; norm_num⟩
  | top => exact ⟨1, by rw [Ideal.sign_top]; norm_num⟩
  | coe r => exact ⟨(SignType.sign r : ℝ), Ideal.sign_coe r⟩

/-- For a real `x`, `x + (sign x − x)` is `sign x`. (At an infinity it is not: `⊤ + (1 − ⊤) = ⊥`.) -/
theorem add_sign_sub_self {x : EReal} (hx : IsFin x) : x + (Ideal.sign x - x) = Ideal.sign x := by
  obtain ⟨r, rfl⟩ := hx
  rw [Ideal.sign_coe, ← EReal.coe_sub, ← EReal.coe_add]
  exact congrArg _ (by ring)

/-- For a variance `v ≥ 0` the normalising factor `rsqrt (v + ε)` is a real number. -/
theorem isFin_rsqrt_add_eps {v : EReal} (hv : ∃ r : ℝ, 0 ≤ r ∧ v = (r : EReal)) : IsFin (Ideal.rsqrt (v + eps)) := by
  obtain ⟨r, hr, rfl⟩ := hv
  obtain ⟨e, he, hE⟩ := eps_pos
  rw [hE, ← EReal.coe_add, Ideal.rsqrt_coe, if_neg (not_lt.mpr (by positivity)), if_neg (by positivity)]
  exact ⟨_, rfl⟩

/-- The batch normalisation of a pre-activation, unfolded: `g · ((acc + b) − m) · rsqrt (v + ε) + be`. -/
def bnRef (acc g b m be v : EReal) : EReal := g * ((acc + b) - m) * Ideal.rsqrt (v + eps) + be

/-- The same with bias and statistics folded into a scale and a shift: `acc · s + (s · (b − m) + be)`, `s = g · rsqrt (v + ε)`. -/
def bnFold (acc g b m be v : EReal) : EReal :=
  acc * (g * Ideal.rsqrt (v + eps)) + (g * Ideal.rsqrt (v + eps) * (b - m) + be)

/-- Distributivity, where every quantity is real: the folded form is the unfolded one. -/
theorem bnFold_eq_bnRef {acc g b m be v : EReal} (hacc : IsFin acc) (hg : IsFin g) (hb : IsFin b) (hm : IsFin m)
    (hbe : IsFin be) (hv : ∃ r : ℝ, 0 ≤ r ∧ v = (r : EReal)) : bnFold acc g b m be v = bnRef acc g b m be v := by
  obtain ⟨t, ht⟩ := isFin_rsqrt_add_eps hv
  obtain ⟨acc, rfl⟩ := hacc
  obtain ⟨g, rfl⟩ := hg
  obtain ⟨b, rfl⟩ := hb
  obtain ⟨m, rfl⟩ := hm
  obtain ⟨be, rfl⟩ := hbe
  unfold bnFold bnRef
  rw [ht]
  simp only [← EReal.coe_mul, ← EReal.coe_add, ← EReal.coe_sub]
  exact congrArg _ (by ring)

/-- A finite sum of products of reals is real. -/
theorem isFin_dot {n : ℕ} {a b : Fin n → EReal} (ha : ∀ k, IsFin (a k)) (hb : ∀ k, IsFin (b k)) :
    IsFin (∑ k, a k * b k) :=
  isFin_sum _ _ fun k _ => by
    obtain ⟨x, hx⟩ := ha k
    obtain ⟨y, hy⟩ := hb k
    exact ⟨x * y, by rw [hx, hy, EReal.coe_mul]⟩

/-! ## One row through the network -/

/-- A hidden layer on one row, batch normalisation unfolded, against the signs of the weights. -/
def hidden {n p : ℕ} (a : Fin n → EReal) (w : Fin p → Fin n → EReal) (b g be m v : Fin p → EReal) (j : Fin p) : EReal :=
  clip (bnRef (∑ k, a k * Ideal.sign (w j k)) (g j) (b j) (m j) (be j) (v j))

/-- A hidden layer on one row in the folded form: a matrix `ws` already holding the signs, a scale and a shift. -/
def hiddenAff {n p : ℕ} (a : Fin n → EReal) (ws : Fin p → Fin n → EReal) (s t : Fin p → EReal) (j : Fin p) : EReal :=
  clip ((∑ k, a k * ws j k) * s j + t j)

/-- With the scale and shift of the folded batch normalisation, the folded layer is the unfolded one, for a real
    input row and real parameters with variances ≥ 0. -/
theorem hiddenAff_eq_hidden {n p : ℕ} {a : Fin n → EReal} (w : Fin p → Fin n → EReal) {b g be m v : Fin p → EReal}
    (ha : ∀ k, IsFin (a k)) (hg : ∀ j, IsFin (g j)) (hb : ∀ j, IsFin (b j)) (hm : ∀ j, IsFin (m j))
    (hbe : ∀ j, IsFin (be j)) (hv : ∀ j, ∃ r : ℝ, 0 ≤ r ∧ v j = (r : EReal)) :
    hiddenAff a (fun j k => Ideal.sign (w j k)) (fun j => g j * Ideal.rsqrt (v j + eps))
        (fun j => g j * Ideal.rsqrt (v j + eps) * (b j - m j) + be j)
      = hidden a w b g be m v := by
  funext j
  unfold hiddenAff hidden
  exact congrArg clip (bnFold_eq_bnRef (isFin_dot ha fun k => isFin_sign _) (hg j) (hb j) (hm j) (hbe j) (hv j))

/-- The output layer on one row: an affine map. -/
def logits {n p : ℕ} (h : Fin n → EReal) (w : Fin p → Fin n → EReal) (b : Fin p → EReal) (c : Fin p) : EReal :=
  (∑ k, h k * w c k) + b c

/-- The largest entry of a row, folded from −∞. -/
def rowMax {p : ℕ} (z : Fin p → EReal) : EReal := (Finset.univ : Finset (Fin p)).fold max negInf z

/-- The log-softmax of a row, shifted by its largest entry. -/
def logSoftmax {p : ℕ} (z : Fin p → EReal) (c : Fin p) : EReal :=
  (z c - rowMax z) - Ideal.log (∑ c', Ideal.exp (z c' - rowMax z))

/-- The whole network on one row, batch normalisations unfolded. -/
def net {n0 n1 n2 n3 n4 : ℕ} (x : Fin n0 → EReal)
    (w1 : Fin n1 → Fin n0 → EReal) (b1 g1 be1 m1 v1 : Fin n1 → EReal)
    (w2 : Fin n2 → Fin n1 → EReal) (b2 g2 be2 m2 v2 : Fin n2 → EReal)
    (w3 : Fin n3 → Fin n2 → EReal) (b3 g3 be3 m3 v3 : Fin n3 → EReal)
    (w4 : Fin n4 → Fin n3 → EReal) (b4 : Fin n4 → EReal) : Fin n4 → EReal :=
  logSoftmax (logits
    (hidden (fun i => Ideal.sign (hidden (fun i => Ideal.sign (hidden x w1 b1 g1 be1 m1 v1 i)) w2 b2 g2 be2 m2 v2 i))
      w3 b3 g3 be3 m3 v3) w4 b4)

/-- The whole network on one row in the folded form: sign matrices, scales and shifts given. -/
def netAff {n0 n1 n2 n3 n4 : ℕ} (x : Fin n0 → EReal)
    (ws1 : Fin n1 → Fin n0 → EReal) (s1 t1 : Fin n1 → EReal)
    (ws2 : Fin n2 → Fin n1 → EReal) (s2 t2 : Fin n2 → EReal)
    (ws3 : Fin n3 → Fin n2 → EReal) (s3 t3 : Fin n3 → EReal)
    (w4 : Fin n4 → Fin n3 → EReal) (b4 : Fin n4 → EReal) : Fin n4 → EReal :=
  logSoftmax (logits
    (hiddenAff (fun i => Ideal.sign (hiddenAff (fun i => Ideal.sign (hiddenAff x ws1 s1 t1 i)) ws2 s2 t2 i))
      ws3 s3 t3) w4 b4)

/-- The folded network, fed the folded batch-normalisation parameters, is the unfolded one: layer by layer, each
    layer's input row being real (the input by hypothesis, the later ones signs). -/
theorem netAff_eq_net {n0 n1 n2 n3 n4 : ℕ} {x : Fin n0 → EReal}
    (w1 : Fin n1 → Fin n0 → EReal) {b1 g1 be1 m1 v1 : Fin n1 → EReal}
    (w2 : Fin n2 → Fin n1 → EReal) {b2 g2 be2 m2 v2 : Fin n2 → EReal}
    (w3 : Fin n3 → Fin n2 → EReal) {b3 g3 be3 m3 v3 : Fin n3 → EReal}
    (w4 : Fin n4 → Fin n3 → EReal) (b4 : Fin n4 → EReal)
    (hx : ∀ k, IsFin (x k))
    (hg1 : ∀ j, IsFin (g1 j)) (hb1 : ∀ j, IsFin (b1 j)) (hm1 : ∀ j, IsFin (m1 j)) (hbe1 : ∀ j, IsFin (be1 j))
    (hv1 : ∀ j, ∃ r : ℝ, 0 ≤ r ∧ v1 j = (r : EReal))
    (hg2 : ∀ j, IsFin (g2 j)) (hb2 : ∀ j, IsFin (b2 j)) (hm2 : ∀ j, IsFin (m2 j)) (hbe2 : ∀ j, IsFin (be2 j))
    (hv2 : ∀ j, ∃ r : ℝ, 0 ≤ r ∧ v2 j = (r : EReal))
    (hg3 : ∀ j, IsFin (g3 j)) (hb3 : ∀ j, IsFin (b3 j)) (hm3 : ∀ j, IsFin (m3 j)) (hbe3 : ∀ j, IsFin (be3 j))
    (hv3 : ∀ j, ∃ r : ℝ, 0 ≤ r ∧ v3 j = (r : EReal)) :
    netAff x (fun j k => Ideal.sign (w1 j k)) (fun j => g1 j * Ideal.rsqrt (v1 j + eps))
        (fun j => g1 j * Ideal.rsqrt (v1 j + eps) * (b1 j - m1 j) + be1 j)
      (fun j k => Ideal.sign (w2 j k)) (fun j => g2 j * Ideal.rsqrt (v2 j + eps))
        (fun j => g2 j * Ideal.rsqrt (v2 j + eps) * (b2 j - m2 j) + be2 j)
      (fun j k => Ideal.sign (w3 j k)) (fun j => g3 j * Ideal.rsqrt (v3 j + eps))
        (fun j => g3 j * Ideal.rsqrt (v3 j + eps) * (b3 j - m3 j) + be3 j)
      w4 b4
      = net x w1 b1 g1 be1 m1 v1 w2 b2 g2 be2 m2 v2 w3 b3 g3 be3 m3 v3 w4 b4 := by
  unfold netAff net
  rw [hiddenAff_eq_hidden w1 hx hg1 hb1 hm1 hbe1 hv1,
    hiddenAff_eq_hidden w2 (fun _ => isFin_sign _) hg2 hb2 hm2 hbe2 hv2,
    hiddenAff_eq_hidden w3 (fun _ => isFin_sign _) hg3 hb3 hm3 hbe3 hv3]

end Cert.NetSpec

end
-- ==== Proof.LibColumnLayout.lean ====
/-
  Two layout operations read at an index, in the forms a row-wise reduction with `keepdims` produces: a vector of
  length `a` viewed as one COLUMN `[a, 1]`, and such a column repeated along `b` columns to `[a, b]`. (The library
  has the row forms: `[a] → [1, a]` and `[1, b] → [a, b]`.)
-/
import Idealize.ShloMosaic.Lib.Pipeline.Value
import Idealize.ShloMosaic.Lib.ValueIdx

namespace ColumnLayout

open Idealize.ShloMosaic Idealize.ShloMosaic.ValueIdx

variable {α : Type}

/-- An `[a]` array cast to `[a, 1]` reads, at `(i, u)`, the operand at `i`, whatever the unit coordinate `u`: the
    two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnLayout
-- ==== Proof.KernelRow.lean ====
/-
  The kernel body's stored value, read at one entry of its 256 × 10 output block.

  The body runs a block of 256 input rows through the folded network: three times a product with a matrix of signs,
  a scale and a shift broadcast over the rows, a clip to [−1, 1] and (twice) the sign of the clipped value; then a
  product with the last layer's matrix plus a bias row; then, per row, the maximum over the ten columns, the shifted
  row, its exponentials' sum, that sum's logarithm, and the shifted row minus it. Every one of these steps keeps
  rows apart: entry `(p, c)` of the result depends on row `p` of the input block only, and is the folded network
  `netAff` of that row at `c`, with the parameter blocks read as matrices and rows.
-/
import proofs.«409394_j3582002725505_3_alg».proof.Proof.Gen.KernelIdeal.Skeleton
import proofs.«409394_j3582002725505_3_alg».proof.Proof.KernelProducts
import proofs.«409394_j3582002725505_3_alg».proof.Proof.NetSpec
import proofs.«409394_j3582002725505_3_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Cert.KernelProducts Idealize.ShloMosaic Idealize.ShloMosaic.ValueIdx
open Cert.NetSpec ColumnLayout
open scoped BigOperators

/-! ## Shape-generic steps, as functions of the index -/

/-- A product into a zero accumulator, times a scale row, plus a shift row: at `(p, j)` it is
    `(∑ k, a (p, k) · w (k, j)) · s (0, j) + t (0, j)`, given that the product reads as that sum. -/
theorem affine_eq {R n q : ℕ} {φa φw : FTy} (d : DotDims ⟨2, ![R, n]⟩ ⟨2, ![n, q]⟩ ⟨2, ![R, q]⟩)
    (prec : Option ContractPrecision)
    (hd : ∀ (l : FVec Ideal ⟨2, ![R, n]⟩ φa) (r : FVec Ideal ⟨2, ![n, q]⟩ φw) (p : Fin R) (j : Fin q),
      FloatOps.matmul d prec l r (constant ⟨2, ![R, q]⟩ .f32 0x00000000#32) (ix2 p j) = ∑ k : Fin n, l (ix2 p k) * r (ix2 k j))
    (a : FVec Ideal ⟨2, ![R, n]⟩ φa) (wt : FVec Ideal ⟨2, ![n, q]⟩ φw) (s t : FVec Ideal ⟨2, ![1, q]⟩ .f32)
    (hw : (⟨2, ![n, q]⟩ : Shape).ShapeCasts ⟨2, ![n, q]⟩) (hs : (⟨2, ![1, q]⟩ : Shape).ShapeCasts ⟨2, ![1, q]⟩)
    (hb : (⟨2, ![1, q]⟩ : Shape).Broadcasts ⟨2, ![R, q]⟩) :
    addf (mulf (matmul d prec a (shapeCast ⟨2, ![n, q]⟩ wt hw) (constant ⟨2, ![R, q]⟩ .f32 0x00000000#32))
        (broadcastTo ⟨2, ![R, q]⟩ (shapeCast ⟨2, ![1, q]⟩ s hs) hb)) (broadcastTo ⟨2, ![R, q]⟩ (shapeCast ⟨2, ![1, q]⟩ t hs) hb)
      = fun i => (∑ k : Fin n, a (ix2 (i 0) k) * wt (ix2 k (i 1))) * s (ix2 (0 : Fin 1) (i 1)) + t (ix2 (0 : Fin 1) (i 1)) := by
  funext i
  obtain ⟨p, j, rfl⟩ : ∃ (p : Fin R) (j : Fin q), i = ix2 p j := ⟨i 0, i 1, eq_ix2 i⟩
  show FloatOps.matmul d prec a (shapeCast _ wt hw) (constant _ .f32 0x00000000#32) (ix2 p j)
      * broadcastTo _ (shapeCast _ s hs) hb (ix2 p j) + broadcastTo _ (shapeCast _ t hs) hb (ix2 p j) = _
  rw [hd, broadcastTo_1b_ab_apply, broadcastTo_1b_ab_apply, shapeCast_self, shapeCast_self, shapeCast_self]
  rfl

/-- The same without a scale: a product into a zero accumulator plus a bias row. -/
theorem affine_bias_eq {R n q : ℕ} {φa φw : FTy} (d : DotDims ⟨2, ![R, n]⟩ ⟨2, ![n, q]⟩ ⟨2, ![R, q]⟩)
    (prec : Option ContractPrecision)
    (hd : ∀ (l : FVec Ideal ⟨2, ![R, n]⟩ φa) (r : FVec Ideal ⟨2, ![n, q]⟩ φw) (p : Fin R) (j : Fin q),
      FloatOps.matmul d prec l r (constant ⟨2, ![R, q]⟩ .f32 0x00000000#32) (ix2 p j) = ∑ k : Fin n, l (ix2 p k) * r (ix2 k j))
    (a : FVec Ideal ⟨2, ![R, n]⟩ φa) (wt : FVec Ideal ⟨2, ![n, q]⟩ φw) (t : FVec Ideal ⟨2, ![1, q]⟩ .f32)
    (hw : (⟨2, ![n, q]⟩ : Shape).ShapeCasts ⟨2, ![n, q]⟩) (hs : (⟨2, ![1, q]⟩ : Shape).ShapeCasts ⟨2, ![1, q]⟩)
    (hb : (⟨2, ![1, q]⟩ : Shape).Broadcasts ⟨2, ![R, q]⟩) :
    addf (matmul d prec a (shapeCast ⟨2, ![n, q]⟩ wt hw) (constant ⟨2, ![R, q]⟩ .f32 0x00000000#32))
        (broadcastTo ⟨2, ![R, q]⟩ (shapeCast ⟨2, ![1, q]⟩ t hs) hb)
      = fun i => (∑ k : Fin n, a (ix2 (i 0) k) * wt (ix2 k (i 1))) + t (ix2 (0 : Fin 1) (i 1)) := by
  funext i
  obtain ⟨p, j, rfl⟩ : ∃ (p : Fin R) (j : Fin q), i = ix2 p j := ⟨i 0, i 1, eq_ix2 i⟩
  show FloatOps.matmul d prec a (shapeCast _ wt hw) (constant _ .f32 0x00000000#32) (ix2 p j)
      + broadcastTo _ (shapeCast _ t hs) hb (ix2 p j) = _
  rw [hd, broadcastTo_1b_ab_apply, shapeCast_self, shapeCast_self]
  rfl

/-- The clip of a block, entry by entry. -/
theorem clip_eq {S : Shape} (hi lo : Ideal .f32) (y : FVec Ideal S .f32) :
    minimumf (broadcast S hi) (maximumf (broadcast S lo) y) = fun i => min hi (max lo (y i)) := rfl

/-- The body's "sign of a block" (1 with the entry's sign where the entry is not 0, else the entry), narrowed to
    sixteen bits, is the sign entry by entry. -/
theorem sign_eq {S : Shape} (h : FVec Ideal S .f32) (hb : (FTy.bf16).bits < (FTy.f32).bits) :
    truncf .bf16 (select (cmpf .ogt (absf h) (broadcast S (Scalar.ofBits .f32 0x00000000#32)))
      (select (cmpf .olt h (constant S .f32 0x00000000#32)) (constant S .f32 0xBF800000#32) (constant S .f32 0x3F800000#32)) h) hb
      = fun i => Ideal.sign (h i) :=
  funext fun i => Ideal.jnp_sign_eq_sign_f32 (h i)

/-- The log-softmax tail on a block `z` of `R` rows and `q` columns, at `(p, c)`: the log-softmax of row `p` at `c`. -/
theorem logSoftmax_apply {R q : ℕ} (z : FVec Ideal ⟨2, ![R, q]⟩ .f32)
    (hred : (⟨2, ![R, q]⟩ : Shape).Reduces [1] ⟨1, ![R]⟩) (hsc : (⟨1, ![R]⟩ : Shape).ShapeCasts ⟨2, ![R, 1]⟩)
    (hbc : (⟨2, ![R, 1]⟩ : Shape).Broadcasts ⟨2, ![R, q]⟩)
    (hφ : FKind.Formats .f32) (hm : (0xFF800000#32 : BitVec 32) = FKind.maximumf.neutral .f32 hφ)
    (ha : (0x00000000#32 : BitVec 32) = FKind.add.neutral .f32 hφ) (p : Fin R) (c : Fin q) :
    subf (subf z (broadcastTo ⟨2, ![R, q]⟩ (shapeCast ⟨2, ![R, 1]⟩ (multiReduction .maximumf [1] ⟨1, ![R]⟩ z 0xFF800000#32 hred hφ hm) hsc) hbc))
      (broadcastTo ⟨2, ![R, q]⟩ (log (shapeCast ⟨2, ![R, 1]⟩ (multiReduction .add [1] ⟨1, ![R]⟩
        (exp (subf z (broadcastTo ⟨2, ![R, q]⟩ (shapeCast ⟨2, ![R, 1]⟩ (multiReduction .maximumf [1] ⟨1, ![R]⟩ z 0xFF800000#32 hred hφ hm) hsc) hbc)))
        0x00000000#32 hred hφ ha) hsc)) hbc) (ix2 p c)
      = logSoftmax (fun c' : Fin q => z (ix2 p c')) c := by
  have hlift : ∀ k : Fin q, hred.lift (ix1 p) k = ix2 p k := fun k => funext fun a => Fin.ext (by
    match a with
    | ⟨0, _⟩ => rfl
    | ⟨1, _⟩ => rfl)
  have hmax : ∀ c' : Fin q, broadcastTo ⟨2, ![R, q]⟩ (shapeCast ⟨2, ![R, 1]⟩ (multiReduction .maximumf [1] ⟨1, ![R]⟩ z 0xFF800000#32 hred hφ hm) hsc) hbc (ix2 p c')
      = rowMax (fun c' : Fin q => z (ix2 p c')) := by
    intro c'
    rw [broadcastTo_a1_ab_apply, shapeCast_a_a1_apply, Ideal.multiReduction_maximumf_single]
    unfold rowMax
    exact congrArg (fun f => Finset.fold max (Ideal.ofBits .f32 0xFF800000#32) f (Finset.univ : Finset (Fin q)))
      (funext fun k => congrArg z (hlift k))
  show (z (ix2 p c) - broadcastTo _ (shapeCast _ (multiReduction .maximumf [1] _ z 0xFF800000#32 hred hφ hm) hsc) hbc (ix2 p c))
      - broadcastTo _ (log (shapeCast _ (multiReduction .add [1] _ (exp (subf z (broadcastTo _ (shapeCast _ (multiReduction .maximumf [1] _ z 0xFF800000#32 hred hφ hm) hsc) hbc))) 0x00000000#32 hred hφ ha) hsc)) hbc (ix2 p c) = _
  rw [hmax, broadcastTo_a1_ab_apply]
  show _ - Ideal.log (shapeCast _ (multiReduction .add [1] _ (exp (subf z (broadcastTo _ (shapeCast _ (multiReduction .maximumf [1] _ z 0xFF800000#32 hred hφ hm) hsc) hbc))) 0x00000000#32 hred hφ ha) hsc (ix2 p (0 : Fin 1))) = _
  rw [shapeCast_a_a1_apply, Ideal.multiReduction_add_single]
  unfold logSoftmax
  refine congrArg (fun s => (z (ix2 p c) - rowMax fun c' : Fin q => z (ix2 p c')) - Ideal.log s) (Finset.sum_congr rfl fun k _ => ?_)
  rw [hlift k]
  exact congrArg (fun mx => Ideal.exp (z (ix2 p k) - mx)) (hmax k)

/-! ## The body's value at an entry -/

section Payload

variable (x0 : Vec Ideal S256x784 .f32) (wt1 : Vec Ideal S784x3072 .bf16) (s1 t1 : Vec Ideal S1x3072 .f32)
  (wt2 : Vec Ideal S3072x1536 .bf16) (s2 t2 : Vec Ideal S1x1536 .f32)
  (wt3 : Vec Ideal S1536x768 .bf16) (s3 t3 : Vec Ideal S1x768 .f32)
  (w4t : Vec Ideal S768x10 .f32) (b4 : Vec Ideal S1x10 .f32)

/-- The first hidden layer of row `p` of the block, folded form. -/
abbrev row1 (p : Fin 256) : Fin 3072 → EReal :=
  hiddenAff (fun k : Fin 784 => x0 (ix2 p k)) (fun (j : Fin 3072) (k : Fin 784) => wt1 (ix2 k j))
    (fun j => s1 (ix2 (0 : Fin 1) j)) (fun j => t1 (ix2 (0 : Fin 1) j))

/-- The body's first part: the second layer's pre-activation (before its clip), at `(p, j)`. -/
theorem pay2_eq :
    k0_pay2 x0 wt1 s1 t1 wt2 s2 t2
      = fun i : S256x1536.Idx => (∑ k : Fin 3072, Ideal.sign (row1 x0 wt1 s1 t1 (i 0) k) * wt2 (ix2 k (i 1)))
          * s2 (ix2 (0 : Fin 1) (i 1)) + t2 (ix2 (0 : Fin 1) (i 1)) := by
  unfold k0_pay2
  dsimp only
  rw [affine_eq (R := 256) (n := 784) (q := 3072) dot_S256x784_S784x3072_S256x3072_1_0_0_1_n_n none matmul1_apply,
    clip_eq, sign_eq,
    affine_eq (R := 256) (n := 3072) (q := 1536) dot_S256x3072_S3072x1536_S256x1536_1_0_0_1_n_n none matmul2_apply]
  rfl

/-- Entry `(p, c)` of what the body stores is the folded network of row `p` of the input block at `c`: the sign
    matrices read transposed (`(j, k) ↦ wt (k, j)`), the scales, shifts and bias read off their one row. -/
theorem payload_apply (p : Fin 256) (c : Fin 10) :
    k0_pay1 (k0_pay3 (k0_pay2 x0 wt1 s1 t1 wt2 s2 t2) (Scalar.ofBits .f32 0xBF800000#32) (Scalar.ofBits .f32 0x3F800000#32) wt3 s3 t3 w4t b4)
        (k0_pay4 (k0_pay2 x0 wt1 s1 t1 wt2 s2 t2) (Scalar.ofBits .f32 0xBF800000#32) (Scalar.ofBits .f32 0x3F800000#32) wt3 s3 t3 w4t b4) (ix2 p c)
      = netAff (fun k : Fin 784 => x0 (ix2 p k))
          (fun (j : Fin 3072) (k : Fin 784) => wt1 (ix2 k j)) (fun j => s1 (ix2 (0 : Fin 1) j)) (fun j => t1 (ix2 (0 : Fin 1) j))
          (fun (j : Fin 1536) (k : Fin 3072) => wt2 (ix2 k j)) (fun j => s2 (ix2 (0 : Fin 1) j)) (fun j => t2 (ix2 (0 : Fin 1) j))
          (fun (j : Fin 768) (k : Fin 1536) => wt3 (ix2 k j)) (fun j => s3 (ix2 (0 : Fin 1) j)) (fun j => t3 (ix2 (0 : Fin 1) j))
          (fun (j : Fin 10) (k : Fin 768) => w4t (ix2 k j)) (fun j => b4 (ix2 (0 : Fin 1) j)) c := by
  rw [pay2_eq]
  unfold k0_pay1 k0_pay4 k0_pay3
  dsimp only
  refine Eq.trans (logSoftmax_apply (R := 256) (q := 10) _ reduces_S256x10_S256 shapeCasts_S256_S256x1
    broadcasts_S256x1_S256x10 _ _ _ p c) ?_
  rw [affine_bias_eq (R := 256) (n := 768) (q := 10) dot_S256x768_S768x10_S256x10_1_0_0_1_n_n (some .fp32) matmul4_apply,
    clip_eq,
    affine_eq (R := 256) (n := 1536) (q := 768) dot_S256x1536_S1536x768_S256x768_1_0_0_1_n_n none matmul3_apply,
    sign_eq, clip_eq]
  rfl

end Payload

end Cert.KernelRow

end
-- ==== Proof.HostArrays.lean ====
/-
  The arrays the kernel's grid of blocks reads, entry by entry, in terms of the program's inputs.

  Before the grid runs, the program prepares twelve arrays from its inputs. For each of the three hidden layers,
  with weight matrix w (one row per output unit), bias b, and batch-normalisation parameters g (gain), be (offset),
  mu (mean) and v (variance), all indexed by the output unit j:

    • the matrix of signs, transposed: entry (k, j) is sign (w (j, k));
    • the scale row  s j = g j · rsqrt (v j + ε),  laid out as a 1 × n array;
    • the shift row  t j = s j · (b j − mu j) + be j,  laid out as a 1 × n array.

  For the last layer: the weight matrix transposed, entry (k, j) = w (j, k), and the bias as a 1 × 10 array.

  Narrowing a 32-bit value to 16 bits changes nothing over the extended reals; a transposition reads entry (k, j)
  at (j, k); a vector laid out as a one-row matrix reads entry (0, j) at j; and the constant ε repeated over a
  vector reads ε at every position. Sums, differences and products are taken entry by entry.

  Each prepared array is first identified, as a whole, with the composite of the operations that wrote it applied
  to the input arrays (the `…_array` statements); the entry is then read off that composite.
-/
import proofs.«409394_j3582002725505_3_alg».proof.Proof.Gen.KernelIdeal.Frame
import proofs.«409394_j3582002725505_3_alg».proof.Proof.NetSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.HostArrays

open Cert.KernelIdeal Cert.KernelIdeal.Gen Idealize.ShloMosaic Idealize.ShloMosaic.ValueIdx Idealize.ShloMosaic.TcCoe

/-! ## The four kinds of prepared array, read at an entry (any extents) -/

/-- The signs of an a × b matrix, transposed and narrowed: entry (k, j) is the sign of entry (j, k). -/
theorem signsT_apply {a b : ℕ} (w : FVec Ideal ⟨2, ![a, b]⟩ .f32)
    (h : (⟨2, ![a, b]⟩ : Shape).Transposes [1, 0] ⟨2, ![b, a]⟩) (hb : FTy.bits .bf16 < FTy.bits .f32)
    (k : Fin b) (j : Fin a) :
    (truncf .bf16 (transpose ⟨2, ![b, a]⟩ [1, 0] (Host.sign (F := Ideal) w) h) hb : FVec Ideal ⟨2, ![b, a]⟩ .bf16) (ix2 k j)
      = Ideal.sign (w (ix2 j k)) := by
  show transpose ⟨2, ![b, a]⟩ [1, 0] (Host.sign (F := Ideal) w) h (ix2 k j) = _
  rw [transpose_ix2_apply]
  rfl

/-- The scale row g · rsqrt (v + ε) as a 1 × n array: entry (0, j) is g j · rsqrt (v j + ε). -/
theorem scale_apply {n : ℕ} (g v : FVec Ideal ⟨1, ![n]⟩ .f32)
    (hb : (⟨0, ![]⟩ : Shape).BroadcastsInDim ⟨1, ![n]⟩ (![] : Fin 0 → Fin 1))
    (hc : (⟨1, ![n]⟩ : Shape).ShapeCasts ⟨2, ![1, n]⟩) (u : Fin 1) (j : Fin n) :
    shapeCast ⟨2, ![1, n]⟩
        (mulf g (Host.rsqrt (F := Ideal) (addf v (broadcastInDim ⟨1, ![n]⟩ ![] hb (constant (F := Ideal) ⟨0, ![]⟩ .f32 0x3727C5AC#32)))))
        hc (ix2 u j)
      = g (ix1 j) * Ideal.rsqrt (v (ix1 j) + Cert.NetSpec.eps) := by
  rw [shapeCast_a_1a_apply]
  rfl

/-- The shift row s · (b − mu) + be, with s the scale row, as a 1 × n array: entry (0, j) is
    g j · rsqrt (v j + ε) · (b j − mu j) + be j. -/
theorem shift_apply {n : ℕ} (g v b mu be : FVec Ideal ⟨1, ![n]⟩ .f32)
    (hb : (⟨0, ![]⟩ : Shape).BroadcastsInDim ⟨1, ![n]⟩ (![] : Fin 0 → Fin 1))
    (hc : (⟨1, ![n]⟩ : Shape).ShapeCasts ⟨2, ![1, n]⟩) (u : Fin 1) (j : Fin n) :
    shapeCast ⟨2, ![1, n]⟩
        (addf (mulf (mulf g (Host.rsqrt (F := Ideal) (addf v (broadcastInDim ⟨1, ![n]⟩ ![] hb (constant (F := Ideal) ⟨0, ![]⟩ .f32 0x3727C5AC#32)))))
          (subf b mu)) be)
        hc (ix2 u j)
      = g (ix1 j) * Ideal.rsqrt (v (ix1 j) + Cert.NetSpec.eps) * (b (ix1 j) - mu (ix1 j)) + be (ix1 j) := by
  rw [shapeCast_a_1a_apply]
  rfl

variable (m : (ℓ : Loc nD τ sig) → Buf (Elt Ideal) ℓ) (c : Dev nD)

/-! ## The input arrays, as core c finds them at launch -/

/-- Input 1 of the program. -/
abbrev A1 : S3072x784.Idx → EReal := m ((c : Thread nD τ).loc main_arg1)
/-- Input 2 of the program. -/
abbrev A2 : S3072.Idx → EReal := m ((c : Thread nD τ).loc main_arg2)
/-- Input 3 of the program. -/
abbrev A3 : S1536x3072.Idx → EReal := m ((c : Thread nD τ).loc main_arg3)
/-- Input 4 of the program. -/
abbrev A4 : S1536.Idx → EReal := m ((c : Thread nD τ).loc main_arg4)
/-- Input 5 of the program. -/
abbrev A5 : S768x1536.Idx → EReal := m ((c : Thread nD τ).loc main_arg5)
/-- Input 6 of the program. -/
abbrev A6 : S768.Idx → EReal := m ((c : Thread nD τ).loc main_arg6)
/-- Input 7 of the program. -/
abbrev A7 : S10x768.Idx → EReal := m ((c : Thread nD τ).loc main_arg7)
/-- Input 8 of the program. -/
abbrev A8 : S10.Idx → EReal := m ((c : Thread nD τ).loc main_arg8)
/-- Input 9 of the program. -/
abbrev A9 : S3072.Idx → EReal := m ((c : Thread nD τ).loc main_arg9)
/-- Input 10 of the program. -/
abbrev A10 : S3072.Idx → EReal := m ((c : Thread nD τ).loc main_arg10)
/-- Input 11 of the program. -/
abbrev A11 : S3072.Idx → EReal := m ((c : Thread nD τ).loc main_arg11)
/-- Input 12 of the program. -/
abbrev A12 : S3072.Idx → EReal := m ((c : Thread nD τ).loc main_arg12)
/-- Input 13 of the program. -/
abbrev A13 : S1536.Idx → EReal := m ((c : Thread nD τ).loc main_arg13)
/-- Input 14 of the program. -/
abbrev A14 : S1536.Idx → EReal := m ((c : Thread nD τ).loc main_arg14)
/-- Input 15 of the program. -/
abbrev A15 : S1536.Idx → EReal := m ((c : Thread nD τ).loc main_arg15)
/-- Input 16 of the program. -/
abbrev A16 : S1536.Idx → EReal := m ((c : Thread nD τ).loc main_arg16)
/-- Input 17 of the program. -/
abbrev A17 : S768.Idx → EReal := m ((c : Thread nD τ).loc main_arg17)
/-- Input 18 of the program. -/
abbrev A18 : S768.Idx → EReal := m ((c : Thread nD τ).loc main_arg18)
/-- Input 19 of the program. -/
abbrev A19 : S768.Idx → EReal := m ((c : Thread nD τ).loc main_arg19)
/-- Input 20 of the program. -/
abbrev A20 : S768.Idx → EReal := m ((c : Thread nD τ).loc main_arg20)

/-! ## The first hidden layer -/

/-- The signs of the first layer's weights, as prepared: the matrix of signs, transposed, narrowed to sixteen bits. -/
theorem signs1_array : (V (F := Ideal) m c main_v2 : S784x3072.Idx → EReal)
    = truncf .bf16 (transpose S784x3072 [1, 0] (Host.sign (F := Ideal) (A1 m c)) Gen.transposes_S3072x784_S784x3072_1_0) Gen.bitsLt_bf16_f32 := by
  dsimp only [Gen.V, Gen.hostOps0]; after_results_simp <;> rfl

/-- Entry (k, j) of the prepared signs is the sign of weight (j, k). -/
theorem signs1 (k : Fin 784) (j : Fin 3072) :
    (V (F := Ideal) m c main_v2 : S784x3072.Idx → EReal) (ix2 k j) = Ideal.sign (A1 m c (ix2 j k)) :=
  (congrFun (signs1_array m c) (ix2 k j)).trans (signsT_apply _ _ _ k j)

/-- The first layer's scale row, as prepared: gain · rsqrt (variance + ε), laid out as one row. -/
theorem scale1_array : (V (F := Ideal) m c main_v10 : S1x3072.Idx → EReal)
    = shapeCast S1x3072 (mulf (A9 m c) (Host.rsqrt (F := Ideal) (addf (A12 m c) (broadcastInDim S3072 ![] Gen.bcast_S_S3072 (constant (F := Ideal) S_ .f32 0x3727C5AC#32))))) Gen.shapeCasts_S3072_S1x3072 := by
  dsimp only [Gen.V, Gen.hostOps0]; after_results_simp <;> rfl

/-- Entry (0, j) of the prepared scale row. -/
theorem scale1 (u : Fin 1) (j : Fin 3072) :
    (V (F := Ideal) m c main_v10 : S1x3072.Idx → EReal) (ix2 u j)
      = A9 m c (ix1 j) * Ideal.rsqrt (A12 m c (ix1 j) + Cert.NetSpec.eps) :=
  (congrFun (scale1_array m c) (ix2 u j)).trans (scale_apply _ _ _ _ u j)

/-- The first layer's shift row, as prepared: scale · (bias − mean) + offset, laid out as one row. -/
theorem shift1_array : (V (F := Ideal) m c main_v11 : S1x3072.Idx → EReal)
    = shapeCast S1x3072 (addf (mulf (mulf (A9 m c) (Host.rsqrt (F := Ideal) (addf (A12 m c) (broadcastInDim S3072 ![] Gen.bcast_S_S3072 (constant (F := Ideal) S_ .f32 0x3727C5AC#32))))) (subf (A2 m c) (A11 m c))) (A10 m c)) Gen.shapeCasts_S3072_S1x3072 := by
  dsimp only [Gen.V, Gen.hostOps0]; after_results_simp <;> rfl

/-- Entry (0, j) of the prepared shift row. -/
theorem shift1 (u : Fin 1) (j : Fin 3072) :
    (V (F := Ideal) m c main_v11 : S1x3072.Idx → EReal) (ix2 u j)
      = A9 m c (ix1 j) * Ideal.rsqrt (A12 m c (ix1 j) + Cert.NetSpec.eps) * (A2 m c (ix1 j) - A11 m c (ix1 j))
          + A10 m c (ix1 j) :=
  (congrFun (shift1_array m c) (ix2 u j)).trans (shift_apply _ _ _ _ _ _ _ u j)

/-! ## The second hidden layer -/

/-- The signs of the second layer's weights, as prepared: the matrix of signs, transposed, narrowed to sixteen bits. -/
theorem signs2_array : (V (F := Ideal) m c main_v14 : S3072x1536.Idx → EReal)
    = truncf .bf16 (transpose S3072x1536 [1, 0] (Host.sign (F := Ideal) (A3 m c)) Gen.transposes_S1536x3072_S3072x1536_1_0) Gen.bitsLt_bf16_f32 := by
  dsimp only [Gen.V, Gen.hostOps0]; after_results_simp <;> rfl

/-- Entry (k, j) of the prepared signs is the sign of weight (j, k). -/
theorem signs2 (k : Fin 3072) (j : Fin 1536) :
    (V (F := Ideal) m c main_v14 : S3072x1536.Idx → EReal) (ix2 k j) = Ideal.sign (A3 m c (ix2 j k)) :=
  (congrFun (signs2_array m c) (ix2 k j)).trans (signsT_apply _ _ _ k j)

/-- The second layer's scale row, as prepared: gain · rsqrt (variance + ε), laid out as one row. -/
theorem scale2_array : (V (F := Ideal) m c main_v22 : S1x1536.Idx → EReal)
    = shapeCast S1x1536 (mulf (A13 m c) (Host.rsqrt (F := Ideal) (addf (A16 m c) (broadcastInDim S1536 ![] Gen.bcast_S_S1536 (constant (F := Ideal) S_ .f32 0x3727C5AC#32))))) Gen.shapeCasts_S1536_S1x1536 := by
  dsimp only [Gen.V, Gen.hostOps0]; after_results_simp <;> rfl

/-- Entry (0, j) of the prepared scale row. -/
theorem scale2 (u : Fin 1) (j : Fin 1536) :
    (V (F := Ideal) m c main_v22 : S1x1536.Idx → EReal) (ix2 u j)
      = A13 m c (ix1 j) * Ideal.rsqrt (A16 m c (ix1 j) + Cert.NetSpec.eps) :=
  (congrFun (scale2_array m c) (ix2 u j)).trans (scale_apply _ _ _ _ u j)

/-- The second layer's shift row, as prepared: scale · (bias − mean) + offset, laid out as one row. -/
theorem shift2_array : (V (F := Ideal) m c main_v23 : S1x1536.Idx → EReal)
    = shapeCast S1x1536 (addf (mulf (mulf (A13 m c) (Host.rsqrt (F := Ideal) (addf (A16 m c) (broadcastInDim S1536 ![] Gen.bcast_S_S1536 (constant (F := Ideal) S_ .f32 0x3727C5AC#32))))) (subf (A4 m c) (A15 m c))) (A14 m c)) Gen.shapeCasts_S1536_S1x1536 := by
  dsimp only [Gen.V, Gen.hostOps0]; after_results_simp <;> rfl

/-- Entry (0, j) of the prepared shift row. -/
theorem shift2 (u : Fin 1) (j : Fin 1536) :
    (V (F := Ideal) m c main_v23 : S1x1536.Idx → EReal) (ix2 u j)
      = A13 m c (ix1 j) * Ideal.rsqrt (A16 m c (ix1 j) + Cert.NetSpec.eps) * (A4 m c (ix1 j) - A15 m c (ix1 j))
          + A14 m c (ix1 j) :=
  (congrFun (shift2_array m c) (ix2 u j)).trans (shift_apply _ _ _ _ _ _ _ u j)

/-! ## The third hidden layer -/

/-- The signs of the third layer's weights, as prepared: the matrix of signs, transposed, narrowed to sixteen bits. -/
theorem signs3_array : (V (F := Ideal) m c main_v26 : S1536x768.Idx → EReal)
    = truncf .bf16 (transpose S1536x768 [1, 0] (Host.sign (F := Ideal) (A5 m c)) Gen.transposes_S768x1536_S1536x768_1_0) Gen.bitsLt_bf16_f32 := by
  dsimp only [Gen.V, Gen.hostOps0]; after_results_simp <;> rfl

/-- Entry (k, j) of the prepared signs is the sign of weight (j, k). -/
theorem signs3 (k : Fin 1536) (j : Fin 768) :
    (V (F := Ideal) m c main_v26 : S1536x768.Idx → EReal) (ix2 k j) = Ideal.sign (A5 m c (ix2 j k)) :=
  (congrFun (signs3_array m c) (ix2 k j)).trans (signsT_apply _ _ _ k j)

/-- The third layer's scale row, as prepared: gain · rsqrt (variance + ε), laid out as one row. -/
theorem scale3_array : (V (F := Ideal) m c main_v34 : S1x768.Idx → EReal)
    = shapeCast S1x768 (mulf (A17 m c) (Host.rsqrt (F := Ideal) (addf (A20 m c) (broadcastInDim S768 ![] Gen.bcast_S_S768 (constant (F := Ideal) S_ .f32 0x3727C5AC#32))))) Gen.shapeCasts_S768_S1x768 := by
  dsimp only [Gen.V, Gen.hostOps0]; after_results_simp <;> rfl

/-- Entry (0, j) of the prepared scale row. -/
theorem scale3 (u : Fin 1) (j : Fin 768) :
    (V (F := Ideal) m c main_v34 : S1x768.Idx → EReal) (ix2 u j)
      = A17 m c (ix1 j) * Ideal.rsqrt (A20 m c (ix1 j) + Cert.NetSpec.eps) :=
  (congrFun (scale3_array m c) (ix2 u j)).trans (scale_apply _ _ _ _ u j)

/-- The third layer's shift row, as prepared: scale · (bias − mean) + offset, laid out as one row. -/
theorem shift3_array : (V (F := Ideal) m c main_v35 : S1x768.Idx → EReal)
    = shapeCast S1x768 (addf (mulf (mulf (A17 m c) (Host.rsqrt (F := Ideal) (addf (A20 m c) (broadcastInDim S768 ![] Gen.bcast_S_S768 (constant (F := Ideal) S_ .f32 0x3727C5AC#32))))) (subf (A6 m c) (A19 m c))) (A18 m c)) Gen.shapeCasts_S768_S1x768 := by
  dsimp only [Gen.V, Gen.hostOps0]; after_results_simp <;> rfl

/-- Entry (0, j) of the prepared shift row. -/
theorem shift3 (u : Fin 1) (j : Fin 768) :
    (V (F := Ideal) m c main_v35 : S1x768.Idx → EReal) (ix2 u j)
      = A17 m c (ix1 j) * Ideal.rsqrt (A20 m c (ix1 j) + Cert.NetSpec.eps) * (A6 m c (ix1 j) - A19 m c (ix1 j))
          + A18 m c (ix1 j) :=
  (congrFun (shift3_array m c) (ix2 u j)).trans (shift_apply _ _ _ _ _ _ _ u j)

/-! ## The last layer -/

/-- The last layer's weights, as prepared: the matrix transposed. -/
theorem weights4_array : (V (F := Ideal) m c main_v36 : S768x10.Idx → EReal)
    = transpose S768x10 [1, 0] (A7 m c) Gen.transposes_S10x768_S768x10_1_0 := by
  dsimp only [Gen.V, Gen.hostOps0]; after_results_simp <;> rfl

/-- Entry (k, j) of the prepared weights is weight (j, k). -/
theorem weights4 (k : Fin 768) (j : Fin 10) :
    (V (F := Ideal) m c main_v36 : S768x10.Idx → EReal) (ix2 k j) = A7 m c (ix2 j k) :=
  (congrFun (weights4_array m c) (ix2 k j)).trans (transpose_ix2_apply _ _ k j)

/-- The last layer's bias, as prepared: laid out as one row. -/
theorem bias4_array : (V (F := Ideal) m c main_v37 : S1x10.Idx → EReal)
    = shapeCast S1x10 (A8 m c) Gen.shapeCasts_S10_S1x10 := by
  dsimp only [Gen.V, Gen.hostOps0]; after_results_simp <;> rfl

/-- Entry (0, j) of the prepared bias row is bias j. -/
theorem bias4 (u : Fin 1) (j : Fin 10) :
    (V (F := Ideal) m c main_v37 : S1x10.Idx → EReal) (ix2 u j) = A8 m c (ix1 j) :=
  (congrFun (bias4_array m c) (ix2 u j)).trans (shapeCast_a_1a_apply _ _ u j)

end Cert.HostArrays

end
-- ==== Proof.NetOnBatch.lean ====
/-
  The network on the whole batch: the function both programs compute of their twenty-one argument arrays.

  The input `x` has 16384 rows of 784 features. Row `r` of the result, ten numbers, is the network `net` of row `r` of
  `x` alone: no row's result depends on another row. Weight matrices are stored one output unit per row
  (`w1 (j, k)` multiplies feature `k` into unit `j`); biases and batch-normalisation parameters are vectors indexed
  by the unit. The arguments come in the order the programs take them.
-/
import proofs.«409394_j3582002725505_3_alg».proof.Proof.NetSpec
import Idealize.ShloMosaic.Lib.ValueIdx

noncomputable section

namespace Cert.NetOnBatch

open Idealize.ShloMosaic Idealize.ShloMosaic.ValueIdx Cert.NetSpec

/-- An `a × b` array of extended reals. -/
abbrev Mat (a b : ℕ) := (⟨2, ![a, b]⟩ : Shape).Idx → EReal
/-- A vector of `a` extended reals. -/
abbrev Vect (a : ℕ) := (⟨1, ![a]⟩ : Shape).Idx → EReal

/-- The result array: entry `(r, c)` is the network of row `r` of `x` at class `c`. -/
def G (x : Mat 16384 784) (w1 : Mat 3072 784) (b1 : Vect 3072) (w2 : Mat 1536 3072) (b2 : Vect 1536)
    (w3 : Mat 768 1536) (b3 : Vect 768) (w4 : Mat 10 768) (b4 : Vect 10)
    (g1 be1 m1 v1 : Vect 3072) (g2 be2 m2 v2 : Vect 1536) (g3 be3 m3 v3 : Vect 768) : Mat 16384 10 :=
  fun i => net (fun k : Fin 784 => x (ix2 (i 0) k))
    (fun (j : Fin 3072) (k : Fin 784) => w1 (ix2 j k)) (fun j => b1 (ix1 j)) (fun j => g1 (ix1 j))
      (fun j => be1 (ix1 j)) (fun j => m1 (ix1 j)) (fun j => v1 (ix1 j))
    (fun (j : Fin 1536) (k : Fin 3072) => w2 (ix2 j k)) (fun j => b2 (ix1 j)) (fun j => g2 (ix1 j))
      (fun j => be2 (ix1 j)) (fun j => m2 (ix1 j)) (fun j => v2 (ix1 j))
    (fun (j : Fin 768) (k : Fin 1536) => w3 (ix2 j k)) (fun j => b3 (ix1 j)) (fun j => g3 (ix1 j))
      (fun j => be3 (ix1 j)) (fun j => m3 (ix1 j)) (fun j => v3 (ix1 j))
    (fun (j : Fin 10) (k : Fin 768) => w4 (ix2 j k)) (fun j => b4 (ix1 j)) (i 1)

/-- The same at explicit coordinates. -/
theorem G_apply (x : Mat 16384 784) (w1 : Mat 3072 784) (b1 : Vect 3072) (w2 : Mat 1536 3072) (b2 : Vect 1536)
    (w3 : Mat 768 1536) (b3 : Vect 768) (w4 : Mat 10 768) (b4 : Vect 10)
    (g1 be1 m1 v1 : Vect 3072) (g2 be2 m2 v2 : Vect 1536) (g3 be3 m3 v3 : Vect 768) (r : Fin 16384) (c : Fin 10) :
    G x w1 b1 w2 b2 w3 b3 w4 b4 g1 be1 m1 v1 g2 be2 m2 v2 g3 be3 m3 v3 (ix2 r c)
      = net (fun k : Fin 784 => x (ix2 r k))
          (fun (j : Fin 3072) (k : Fin 784) => w1 (ix2 j k)) (fun j => b1 (ix1 j)) (fun j => g1 (ix1 j))
            (fun j => be1 (ix1 j)) (fun j => m1 (ix1 j)) (fun j => v1 (ix1 j))
          (fun (j : Fin 1536) (k : Fin 3072) => w2 (ix2 j k)) (fun j => b2 (ix1 j)) (fun j => g2 (ix1 j))
            (fun j => be2 (ix1 j)) (fun j => m2 (ix1 j)) (fun j => v2 (ix1 j))
          (fun (j : Fin 768) (k : Fin 1536) => w3 (ix2 j k)) (fun j => b3 (ix1 j)) (fun j => g3 (ix1 j))
            (fun j => be3 (ix1 j)) (fun j => m3 (ix1 j)) (fun j => v3 (ix1 j))
          (fun (j : Fin 10) (k : Fin 768) => w4 (ix2 j k)) (fun j => b4 (ix1 j)) c := rfl

end Cert.NetOnBatch

end
-- ==== Proof.KernelArray.lean ====
/-
  The kernel program's result array, as one function of its arguments.

  The pallas_call walks 64 grid points. At point `t` it stages rows `256 t … 256 t + 255` of the input `x`, keeps
  every parameter array resident whole (their block index is 0 at every point), runs the body, and writes the
  256 × 10 result back as rows `256 t … 256 t + 255` of the output. The parameter arrays the body sees are the host's
  work before the call: sign matrices transposed, and per hidden layer the folded scale and shift of the batch
  normalisation.

  So entry `(p, c)` of what point `t` writes back is the folded network of row `256 t + p` of `x` (the body's value
  at an entry, with each block read back as the array it came from), which is the network `net` of that row by the
  distributive law, the arguments being real and the variances not negative. The 64 blocks tile the 16384 rows, so the
  output array ends as the network on the whole batch.
-/
import proofs.«409394_j3582002725505_3_alg».proof.Proof.Gen.KernelIdeal.Value
import proofs.«409394_j3582002725505_3_alg».proof.Proof.KernelRow
import proofs.«409394_j3582002725505_3_alg».proof.Proof.HostArrays
import proofs.«409394_j3582002725505_3_alg».proof.Proof.NetOnBatch
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelArray

open Cert.KernelIdeal Cert.KernelIdeal.Gen Cert.KernelIdeal.Value Idealize.ShloMosaic.ValueIdx
open IdealFinite Cert.NetSpec Cert.NetOnBatch

variable (m : (ℓ : Loc nD τ sig) → Buf (Elt Ideal) ℓ) (ρ : Dev nD → PrngReg)

theorem hz : (![0, 0] : Fin 2 → Nat) = fun _ => 0 := funext fun a => by fin_cases a <;> rfl

/-! ## The windows' block indices, decided over the 64 grid points -/

/-- The input `x` and the output move together: block `t` of each at point `t`, the one column block. -/
theorem idx_io : ∀ t : Fin cfg0.N,
    win0_0.index t (0 : Fin 2) = t.val ∧ win0_0.index t (1 : Fin 2) = 0
    ∧ win0_12.index t (0 : Fin 2) = t.val ∧ win0_12.index t (1 : Fin 2) = 0 :=
  (by decide +kernel : ∀ t : Fin grid0.N, _)

/-- The grid has 64 points. -/
theorem N_eq : cfg0.N = 64 := N_0

-- every parameter window stays on its one whole block
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)

/-! ## Each window's block, read back as the array it was cut from -/

/-- The input window's block at point `t` is rows `256 t … 256 t + 255` of `x`. -/
theorem xblk_apply (c : Dev nD) (t : Fin cfg0.N) (p : Fin 256) (k : Fin 784) (r : Fin 16384)
    (hr : r.val = 256 * t.val + p.val) :
    (iblk (F := Ideal) m c 0 t : Vec Ideal S256x784 .f32) (ix2 p k)
      = (m ((c : Thread nD τ).loc main_arg0) : S16384x784.Idx → EReal) (ix2 r k) := by
  obtain ⟨h0, h1, -⟩ := idx_io t
  unfold iblk
  rw [View.read_apply]
  show V m c main_arg0 _ = m (c.tc.loc main_arg0) _
  rw [V_main_arg0 m c]
  congr 1
  funext a
  apply Fin.ext
  match a with
  | ⟨0, _⟩ => show win0_0.index t 0 * 256 + 1 * p.val = r.val; rw [h0, hr]; omega
  | ⟨1, _⟩ => show win0_0.index t 1 * 784 + 1 * k.val = k.val; rw [h1]; omega

theorem blk1_apply (c : Dev nD) (t : Fin cfg0.N) (y : S784x3072.Idx) :
    (iblk (F := Ideal) m c 1 t : Vec Ideal S784x3072 .bf16) y = (V (F := Ideal) m c main_v2 : S784x3072.Idx → EReal) y := by
  obtain ⟨h0, h1⟩ := idx_w1 t
  unfold iblk
  rw [View.read_apply]
  show V m c main_v2 _ = V m c main_v2 y
  congr 1
  funext a
  apply Fin.ext
  match a with
  | ⟨0, _⟩ => show win0_1.index t 0 * 784 + 1 * (y 0).val = (y 0).val; rw [h0]; omega
  | ⟨1, _⟩ => show win0_1.index t 1 * 3072 + 1 * (y 1).val = (y 1).val; rw [h1]; omega

theorem blk2_apply (c : Dev nD) (t : Fin cfg0.N) (y : S1x3072.Idx) :
    (iblk (F := Ideal) m c 2 t : Vec Ideal S1x3072 .f32) y = (V (F := Ideal) m c main_v10 : S1x3072.Idx → EReal) y := by
  obtain ⟨h0, h1⟩ := idx_w2 t
  unfold iblk
  rw [View.read_apply]
  show V m c main_v10 _ = V m c main_v10 y
  congr 1
  funext a
  apply Fin.ext
  match a with
  | ⟨0, _⟩ => show win0_2.index t 0 * 1 + 1 * (y 0).val = (y 0).val; rw [h0]; omega
  | ⟨1, _⟩ => show win0_2.index t 1 * 3072 + 1 * (y 1).val = (y 1).val; rw [h1]; omega

theorem blk3_apply (c : Dev nD) (t : Fin cfg0.N) (y : S1x3072.Idx) :
    (iblk (F := Ideal) m c 3 t : Vec Ideal S1x3072 .f32) y = (V (F := Ideal) m c main_v11 : S1x3072.Idx → EReal) y := by
  obtain ⟨h0, h1⟩ := idx_w3 t
  unfold iblk
  rw [View.read_apply]
  show V m c main_v11 _ = V m c main_v11 y
  congr 1
  funext a
  apply Fin.ext
  match a with
  | ⟨0, _⟩ => show win0_3.index t 0 * 1 + 1 * (y 0).val = (y 0).val; rw [h0]; omega
  | ⟨1, _⟩ => show win0_3.index t 1 * 3072 + 1 * (y 1).val = (y 1).val; rw [h1]; omega

theorem blk4_apply (c : Dev nD) (t : Fin cfg0.N) (y : S3072x1536.Idx) :
    (iblk (F := Ideal) m c 4 t : Vec Ideal S3072x1536 .bf16) y = (V (F := Ideal) m c main_v14 : S3072x1536.Idx → EReal) y := by
  obtain ⟨h0, h1⟩ := idx_w4 t
  unfold iblk
  rw [View.read_apply]
  show V m c main_v14 _ = V m c main_v14 y
  congr 1
  funext a
  apply Fin.ext
  match a with
  | ⟨0, _⟩ => show win0_4.index t 0 * 3072 + 1 * (y 0).val = (y 0).val; rw [h0]; omega
  | ⟨1, _⟩ => show win0_4.index t 1 * 1536 + 1 * (y 1).val = (y 1).val; rw [h1]; omega

theorem blk5_apply (c : Dev nD) (t : Fin cfg0.N) (y : S1x1536.Idx) :
    (iblk (F := Ideal) m c 5 t : Vec Ideal S1x1536 .f32) y = (V (F := Ideal) m c main_v22 : S1x1536.Idx → EReal) y := by
  obtain ⟨h0, h1⟩ := idx_w5 t
  unfold iblk
  rw [View.read_apply]
  show V m c main_v22 _ = V m c main_v22 y
  congr 1
  funext a
  apply Fin.ext
  match a with
  | ⟨0, _⟩ => show win0_5.index t 0 * 1 + 1 * (y 0).val = (y 0).val; rw [h0]; omega
  | ⟨1, _⟩ => show win0_5.index t 1 * 1536 + 1 * (y 1).val = (y 1).val; rw [h1]; omega

theorem blk6_apply (c : Dev nD) (t : Fin cfg0.N) (y : S1x1536.Idx) :
    (iblk (F := Ideal) m c 6 t : Vec Ideal S1x1536 .f32) y = (V (F := Ideal) m c main_v23 : S1x1536.Idx → EReal) y := by
  obtain ⟨h0, h1⟩ := idx_w6 t
  unfold iblk
  rw [View.read_apply]
  show V m c main_v23 _ = V m c main_v23 y
  congr 1
  funext a
  apply Fin.ext
  match a with
  | ⟨0, _⟩ => show win0_6.index t 0 * 1 + 1 * (y 0).val = (y 0).val; rw [h0]; omega
  | ⟨1, _⟩ => show win0_6.index t 1 * 1536 + 1 * (y 1).val = (y 1).val; rw [h1]; omega

theorem blk7_apply (c : Dev nD) (t : Fin cfg0.N) (y : S1536x768.Idx) :
    (iblk (F := Ideal) m c 7 t : Vec Ideal S1536x768 .bf16) y = (V (F := Ideal) m c main_v26 : S1536x768.Idx → EReal) y := by
  obtain ⟨h0, h1⟩ := idx_w7 t
  unfold iblk
  rw [View.read_apply]
  show V m c main_v26 _ = V m c main_v26 y
  congr 1
  funext a
  apply Fin.ext
  match a with
  | ⟨0, _⟩ => show win0_7.index t 0 * 1536 + 1 * (y 0).val = (y 0).val; rw [h0]; omega
  | ⟨1, _⟩ => show win0_7.index t 1 * 768 + 1 * (y 1).val = (y 1).val; rw [h1]; omega

theorem blk8_apply (c : Dev nD) (t : Fin cfg0.N) (y : S1x768.Idx) :
    (iblk (F := Ideal) m c 8 t : Vec Ideal S1x768 .f32) y = (V (F := Ideal) m c main_v34 : S1x768.Idx → EReal) y := by
  obtain ⟨h0, h1⟩ := idx_w8 t
  unfold iblk
  rw [View.read_apply]
  show V m c main_v34 _ = V m c main_v34 y
  congr 1
  funext a
  apply Fin.ext
  match a with
  | ⟨0, _⟩ => show win0_8.index t 0 * 1 + 1 * (y 0).val = (y 0).val; rw [h0]; omega
  | ⟨1, _⟩ => show win0_8.index t 1 * 768 + 1 * (y 1).val = (y 1).val; rw [h1]; omega

theorem blk9_apply (c : Dev nD) (t : Fin cfg0.N) (y : S1x768.Idx) :
    (iblk (F := Ideal) m c 9 t : Vec Ideal S1x768 .f32) y = (V (F := Ideal) m c main_v35 : S1x768.Idx → EReal) y := by
  obtain ⟨h0, h1⟩ := idx_w9 t
  unfold iblk
  rw [View.read_apply]
  show V m c main_v35 _ = V m c main_v35 y
  congr 1
  funext a
  apply Fin.ext
  match a with
  | ⟨0, _⟩ => show win0_9.index t 0 * 1 + 1 * (y 0).val = (y 0).val; rw [h0]; omega
  | ⟨1, _⟩ => show win0_9.index t 1 * 768 + 1 * (y 1).val = (y 1).val; rw [h1]; omega

theorem blk10_apply (c : Dev nD) (t : Fin cfg0.N) (y : S768x10.Idx) :
    (iblk (F := Ideal) m c 10 t : Vec Ideal S768x10 .f32) y = (V (F := Ideal) m c main_v36 : S768x10.Idx → EReal) y := by
  obtain ⟨h0, h1⟩ := idx_w10 t
  unfold iblk
  rw [View.read_apply]
  show V m c main_v36 _ = V m c main_v36 y
  congr 1
  funext a
  apply Fin.ext
  match a with
  | ⟨0, _⟩ => show win0_10.index t 0 * 768 + 1 * (y 0).val = (y 0).val; rw [h0]; omega
  | ⟨1, _⟩ => show win0_10.index t 1 * 10 + 1 * (y 1).val = (y 1).val; rw [h1]; omega

theorem blk11_apply (c : Dev nD) (t : Fin cfg0.N) (y : S1x10.Idx) :
    (iblk (F := Ideal) m c 11 t : Vec Ideal S1x10 .f32) y = (V (F := Ideal) m c main_v37 : S1x10.Idx → EReal) y := by
  obtain ⟨h0, h1⟩ := idx_w11 t
  unfold iblk
  rw [View.read_apply]
  show V m c main_v37 _ = V m c main_v37 y
  congr 1
  funext a
  apply Fin.ext
  match a with
  | ⟨0, _⟩ => show win0_11.index t 0 * 1 + 1 * (y 0).val = (y 0).val; rw [h0]; omega
  | ⟨1, _⟩ => show win0_11.index t 1 * 10 + 1 * (y 1).val = (y 1).val; rw [h1]; omega

/-! ## What the arguments must be: real numbers, the variances not negative -/

/-- The facts the distributive law needs of one device's arguments: the input, and per hidden layer the bias and
    the batch-normalisation weight, offset and mean, are real; the three variance vectors are real and ≥ 0. -/
def RealArgs (c : Dev nD) : Prop :=
  AllFin (S := S16384x784) (m ((c : Thread nD τ).loc main_arg0))
  ∧ (AllFin (S := S3072) (m ((c : Thread nD τ).loc main_arg2)) ∧ AllFin (S := S3072) (m ((c : Thread nD τ).loc main_arg9)) ∧ AllFin (S := S3072) (m ((c : Thread nD τ).loc main_arg10))
      ∧ AllFin (S := S3072) (m ((c : Thread nD τ).loc main_arg11)) ∧ AllNonneg (S := S3072) (m ((c : Thread nD τ).loc main_arg12)))
  ∧ (AllFin (S := S1536) (m ((c : Thread nD τ).loc main_arg4)) ∧ AllFin (S := S1536) (m ((c : Thread nD τ).loc main_arg13)) ∧ AllFin (S := S1536) (m ((c : Thread nD τ).loc main_arg14))
      ∧ AllFin (S := S1536) (m ((c : Thread nD τ).loc main_arg15)) ∧ AllNonneg (S := S1536) (m ((c : Thread nD τ).loc main_arg16)))
  ∧ (AllFin (S := S768) (m ((c : Thread nD τ).loc main_arg6)) ∧ AllFin (S := S768) (m ((c : Thread nD τ).loc main_arg17)) ∧ AllFin (S := S768) (m ((c : Thread nD τ).loc main_arg18))
      ∧ AllFin (S := S768) (m ((c : Thread nD τ).loc main_arg19)) ∧ AllNonneg (S := S768) (m ((c : Thread nD τ).loc main_arg20)))

/-- The network on the whole batch, of device `c`'s arguments. -/
abbrev result (c : Dev nD) : Buf (Elt Ideal) ((c : Thread nD τ).loc main_v38) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-! ## One point's write-back -/

/-- Entry `(p, q)` of the output block of point `t` is entry `(256 t + p, q)` of the output array. -/
theorem out_emb (t : Fin cfg0.N) (p : Fin 256) (q : Fin 10) (r : Fin 16384) (hr : r.val = 256 * t.val + p.val) :
    ((cfg0.win 12).blk t).view.emb (ix2 p q) = (ix2 r q : S16384x10.Idx) := by
  obtain ⟨-, -, h0, h1⟩ := idx_io t
  funext a
  apply Fin.ext
  match a with
  | ⟨0, _⟩ => show win0_12.index t 0 * 256 + 1 * p.val = r.val; rw [h0, hr]; omega
  | ⟨1, _⟩ => show win0_12.index t 1 * 10 + 1 * q.val = q.val; rw [h1]; omega

/-- What point `t` writes back is block `t` of the network on the whole batch. -/
theorem flushed_eq (c : Dev nD) (hA : RealArgs m c) (t : Fin cfg0.N) :
    (dats m 0 c).flushed 12 t = ((cfg0.win 12).blk t).view.read (Elt Ideal) (result m c) := by
  obtain ⟨hx, ⟨hb1, hg1, hbe1, hm1, hv1⟩, ⟨hb2, hg2, hbe2, hm2, hv2⟩, ⟨hb3, hg3, hbe3, hm3, hv3⟩⟩ := hA
  rw [flushed12]
  unfold out0_12
  rw [View.canon_unit_zero hz]
  simp only [View.ld_unit_zero (S := S256x784) hz, View.ld_unit_zero (S := S784x3072) hz,
    View.ld_unit_zero (S := S1x3072) hz, View.ld_unit_zero (S := S3072x1536) hz, View.ld_unit_zero (S := S1x1536) hz,
    View.ld_unit_zero (S := S1536x768) hz, View.ld_unit_zero (S := S1x768) hz, View.ld_unit_zero (S := S768x10) hz,
    View.ld_unit_zero (S := S1x10) hz]
  funext y
  obtain ⟨p, q, rfl⟩ : ∃ (p : Fin 256) (q : Fin 10), y = ix2 p q := ⟨y 0, y 1, eq_ix2 y⟩
  have ht : t.val < 64 := lt_of_lt_of_eq t.isLt N_eq
  obtain ⟨r, hr⟩ : ∃ r : Fin 16384, r.val = 256 * t.val + p.val := ⟨⟨256 * t.val + p.val, by have := p.isLt; omega⟩, rfl⟩
  show (k0_pay1 (F := Ideal) _ _ (ix2 p q) : EReal) = (result m c : S16384x10.Idx → EReal) (((cfg0.win 12).blk t).view.emb (ix2 p q))
  rw [out_emb t p q r hr]
  refine (Cert.KernelRow.payload_apply (iblk (F := Ideal) m c 0 t) (iblk (F := Ideal) m c 1 t) (iblk (F := Ideal) m c 2 t)
    (iblk (F := Ideal) m c 3 t) (iblk (F := Ideal) m c 4 t) (iblk (F := Ideal) m c 5 t) (iblk (F := Ideal) m c 6 t)
    (iblk (F := Ideal) m c 7 t) (iblk (F := Ideal) m c 8 t) (iblk (F := Ideal) m c 9 t) (iblk (F := Ideal) m c 10 t)
    (iblk (F := Ideal) m c 11 t) p q).trans ?_
  have e0 : (fun k : Fin 784 => (iblk (F := Ideal) m c 0 t : Vec Ideal S256x784 .f32) (ix2 p k))
      = fun k => ((m ((c : Thread nD τ).loc main_arg0)) : S16384x784.Idx → EReal) (ix2 r k) := funext fun k => xblk_apply m c t p k r hr
  have e1 : (fun (j : Fin 3072) (k : Fin 784) => (iblk (F := Ideal) m c 1 t : Vec Ideal S784x3072 .bf16) (ix2 k j))
      = fun j k => Ideal.sign (Cert.HostArrays.A1 m c (ix2 j k)) :=
    funext fun j => funext fun k => (blk1_apply m c t _).trans (Cert.HostArrays.signs1 m c k j)
  have e2 : (fun j : Fin 3072 => (iblk (F := Ideal) m c 2 t : Vec Ideal S1x3072 .f32) (ix2 (0 : Fin 1) j))
      = fun j => Cert.HostArrays.A9 m c (ix1 j) * Ideal.rsqrt (Cert.HostArrays.A12 m c (ix1 j) + eps) :=
    funext fun j => (blk2_apply m c t _).trans (Cert.HostArrays.scale1 m c 0 j)
  have e3 : (fun j : Fin 3072 => (iblk (F := Ideal) m c 3 t : Vec Ideal S1x3072 .f32) (ix2 (0 : Fin 1) j))
      = fun j => Cert.HostArrays.A9 m c (ix1 j) * Ideal.rsqrt (Cert.HostArrays.A12 m c (ix1 j) + eps)
          * (Cert.HostArrays.A2 m c (ix1 j) - Cert.HostArrays.A11 m c (ix1 j)) + Cert.HostArrays.A10 m c (ix1 j) :=
    funext fun j => (blk3_apply m c t _).trans (Cert.HostArrays.shift1 m c 0 j)
  have e4 : (fun (j : Fin 1536) (k : Fin 3072) => (iblk (F := Ideal) m c 4 t : Vec Ideal S3072x1536 .bf16) (ix2 k j))
      = fun j k => Ideal.sign (Cert.HostArrays.A3 m c (ix2 j k)) :=
    funext fun j => funext fun k => (blk4_apply m c t _).trans (Cert.HostArrays.signs2 m c k j)
  have e5 : (fun j : Fin 1536 => (iblk (F := Ideal) m c 5 t : Vec Ideal S1x1536 .f32) (ix2 (0 : Fin 1) j))
      = fun j => Cert.HostArrays.A13 m c (ix1 j) * Ideal.rsqrt (Cert.HostArrays.A16 m c (ix1 j) + eps) :=
    funext fun j => (blk5_apply m c t _).trans (Cert.HostArrays.scale2 m c 0 j)
  have e6 : (fun j : Fin 1536 => (iblk (F := Ideal) m c 6 t : Vec Ideal S1x1536 .f32) (ix2 (0 : Fin 1) j))
      = fun j => Cert.HostArrays.A13 m c (ix1 j) * Ideal.rsqrt (Cert.HostArrays.A16 m c (ix1 j) + eps)
          * (Cert.HostArrays.A4 m c (ix1 j) - Cert.HostArrays.A15 m c (ix1 j)) + Cert.HostArrays.A14 m c (ix1 j) :=
    funext fun j => (blk6_apply m c t _).trans (Cert.HostArrays.shift2 m c 0 j)
  have e7 : (fun (j : Fin 768) (k : Fin 1536) => (iblk (F := Ideal) m c 7 t : Vec Ideal S1536x768 .bf16) (ix2 k j))
      = fun j k => Ideal.sign (Cert.HostArrays.A5 m c (ix2 j k)) :=
    funext fun j => funext fun k => (blk7_apply m c t _).trans (Cert.HostArrays.signs3 m c k j)
  have e8 : (fun j : Fin 768 => (iblk (F := Ideal) m c 8 t : Vec Ideal S1x768 .f32) (ix2 (0 : Fin 1) j))
      = fun j => Cert.HostArrays.A17 m c (ix1 j) * Ideal.rsqrt (Cert.HostArrays.A20 m c (ix1 j) + eps) :=
    funext fun j => (blk8_apply m c t _).trans (Cert.HostArrays.scale3 m c 0 j)
  have e9 : (fun j : Fin 768 => (iblk (F := Ideal) m c 9 t : Vec Ideal S1x768 .f32) (ix2 (0 : Fin 1) j))
      = fun j => Cert.HostArrays.A17 m c (ix1 j) * Ideal.rsqrt (Cert.HostArrays.A20 m c (ix1 j) + eps)
          * (Cert.HostArrays.A6 m c (ix1 j) - Cert.HostArrays.A19 m c (ix1 j)) + Cert.HostArrays.A18 m c (ix1 j) :=
    funext fun j => (blk9_apply m c t _).trans (Cert.HostArrays.shift3 m c 0 j)
  have e10 : (fun (j : Fin 10) (k : Fin 768) => (iblk (F := Ideal) m c 10 t : Vec Ideal S768x10 .f32) (ix2 k j))
      = fun j k => Cert.HostArrays.A7 m c (ix2 j k) :=
    funext fun j => funext fun k => (blk10_apply m c t _).trans (Cert.HostArrays.weights4 m c k j)
  have e11 : (fun j : Fin 10 => (iblk (F := Ideal) m c 11 t : Vec Ideal S1x10 .f32) (ix2 (0 : Fin 1) j))
      = fun j => Cert.HostArrays.A8 m c (ix1 j) :=
    funext fun j => (blk11_apply m c t _).trans (Cert.HostArrays.bias4 m c 0 j)
  rw [e0, e1, e2, e3, e4, e5, e6, e7, e8, e9, e10, e11]
  show _ = G _ _ _ _ _ _ _ _ _ _ _ _ _ _ _ _ _ _ _ _ _ (ix2 r q)
  rw [G_apply]
  refine congrFun (netAff_eq_net
    (x := fun k : Fin 784 => (m ((c : Thread nD τ).loc main_arg0) : S16384x784.Idx → EReal) (ix2 r k))
    (b1 := fun j : Fin 3072 => Cert.HostArrays.A2 m c (ix1 j)) (g1 := fun j => Cert.HostArrays.A9 m c (ix1 j)) (be1 := fun j => Cert.HostArrays.A10 m c (ix1 j))
    (m1 := fun j => Cert.HostArrays.A11 m c (ix1 j)) (v1 := fun j => Cert.HostArrays.A12 m c (ix1 j))
    (b2 := fun j : Fin 1536 => Cert.HostArrays.A4 m c (ix1 j)) (g2 := fun j => Cert.HostArrays.A13 m c (ix1 j)) (be2 := fun j => Cert.HostArrays.A14 m c (ix1 j))
    (m2 := fun j => Cert.HostArrays.A15 m c (ix1 j)) (v2 := fun j => Cert.HostArrays.A16 m c (ix1 j))
    (b3 := fun j : Fin 768 => Cert.HostArrays.A6 m c (ix1 j)) (g3 := fun j => Cert.HostArrays.A17 m c (ix1 j)) (be3 := fun j => Cert.HostArrays.A18 m c (ix1 j))
    (m3 := fun j => Cert.HostArrays.A19 m c (ix1 j)) (v3 := fun j => Cert.HostArrays.A20 m c (ix1 j))
    (fun (j : Fin 3072) (k : Fin 784) => Cert.HostArrays.A1 m c (ix2 j k))
    (fun (j : Fin 1536) (k : Fin 3072) => Cert.HostArrays.A3 m c (ix2 j k))
    (fun (j : Fin 768) (k : Fin 1536) => Cert.HostArrays.A5 m c (ix2 j k))
    (fun (j : Fin 10) (k : Fin 768) => Cert.HostArrays.A7 m c (ix2 j k)) (fun j : Fin 10 => Cert.HostArrays.A8 m c (ix1 j))
    (fun k => hx (ix2 r k))
    (fun j => hg1 (ix1 j)) (fun j => hb1 (ix1 j)) (fun j => hm1 (ix1 j)) (fun j => hbe1 (ix1 j)) (fun j => hv1 (ix1 j))
    (fun j => hg2 (ix1 j)) (fun j => hb2 (ix1 j)) (fun j => hm2 (ix1 j)) (fun j => hbe2 (ix1 j)) (fun j => hv2 (ix1 j))
    (fun j => hg3 (ix1 j)) (fun j => hb3 (ix1 j)) (fun j => hm3 (ix1 j)) (fun j => hbe3 (ix1 j)) (fun j => hv3 (ix1 j))) q

/-! ## The blocks tile the output -/

/-- An index of the output array is in point `t`'s block iff each coordinate is in the block's range. -/
theorem mem_blk (t : Fin cfg0.N) (i : S16384x10.Idx) :
    i ∈ ((cfg0.win 12).blk t).view.set ↔ ∀ a : Fin 2, win0_12.index t a * S256x10.size a ≤ (i a).val
      ∧ (i a).val < win0_12.index t a * S256x10.size a + S256x10.size a := by
  show i ∈ ((View.whole main_v38).slice (win0_12.rect t)).set ↔ _
  rw [View.set_slice_whole, Rect.mem_set_unit]
  exact Iff.rfl

/-- Row `r` of the output lies in the block of point `r / 256`. -/
theorem cover (i : S16384x10.Idx) :
    ∃ t : Fin cfg0.N, (cfg0.win 12).flush t = true ∧ i ∈ ((cfg0.win 12).blk t).view.set := by
  have hi0 : (i 0).val < 16384 := (i 0).isLt
  have hi1 : (i 1).val < 10 := (i 1).isLt
  let t : Fin cfg0.N := ⟨(i 0).val / 256, by rw [N_eq]; omega⟩
  obtain ⟨-, -, h0, h1⟩ := idx_io t
  refine ⟨t, flush0_12 t, ?_⟩
  rw [mem_blk]
  intro a
  match a with
  | ⟨0, _⟩ =>
    show win0_12.index t 0 * 256 ≤ (i 0).val ∧ (i 0).val < win0_12.index t 0 * 256 + 256
    rw [h0]
    show (i 0).val / 256 * 256 ≤ (i 0).val ∧ (i 0).val < (i 0).val / 256 * 256 + 256
    omega
  | ⟨1, _⟩ =>
    show win0_12.index t 1 * 10 ≤ (i 1).val ∧ (i 1).val < win0_12.index t 1 * 10 + 10
    rw [h1]
    omega

/-- The output array after the run is the network on the whole batch. -/
theorem final (c : Dev nD) (hA : RealArgs m c) : (dats m 0 c).arrAt 12 cfg0.N = result m c :=
  (dats m 0 c).arrAt_eq_of_cover 12 (result m c) (fun t _ => flushed_eq m c hA t) cover

/-! ## The run -/

/-- Every weakly fair execution of the kernel program terminates with the result array at the network on the whole
    batch and the arguments unchanged, when on every device the arguments are real with variances ≥ 0. -/
theorem run (hA : ∀ c : Dev nD, RealArgs m c) :
    θ_run defs (onTc (τ := τ) (main (F := Ideal))) ⟨m, fun _ => 0, ρ⟩ fun r => ∀ c : Dev nD,
      r.2.mem ((c : Thread nD τ).loc main_v38) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun _ h c => ⟨(h c).1.trans (final m c (hA c)), (h c).2⟩) (run_blocks m ρ)

end Cert.KernelArray

end
-- ==== Proof.RefIsNet.lean ====
/-
  The reference program's result, stage by stage, is the network on the whole batch.

  The reference computes on whole arrays: a product of the batch with the transposed "sign" of a weight matrix, the
  bias, mean, weight, inverse standard deviation and offset broadcast over the rows and applied one after the other,
  a clip, and the "sign" of the clipped values fed to the next layer; after three such layers an affine map and a
  log-softmax along the classes. Read at one entry `(r, c)`, every stage depends on row `r` of the stage before it
  only, so the result at `(r, c)` is the row-wise network `net` of row `r` of the input, at `c`.

  Two spellings need an argument. The reference writes "the sign of x" as `x + (sign x − x)`; that is `sign x`
  exactly when `x` is a real number, which holds of the weights by hypothesis and of a clipped value always. And its
  row maximum is a reduction by maximum started from −∞ and then compared with −∞ again; over the extended reals −∞ is
  the least element, so both are the plain maximum of the row.
-/
import proofs.«409394_j3582002725505_3_alg».proof.Proof.RefRead
import proofs.«409394_j3582002725505_3_alg».proof.Proof.NetSpec
import proofs.«409394_j3582002725505_3_alg».proof.Proof.NetOnBatch
import Idealize.ShloMosaic.Lib.ValueIdx
import Idealize.ShloMosaic.PureOps.Ideal.Laws
import Idealize.ShloMosaic.PureOps.Reduce

noncomputable section

namespace Cert.RefNet

open Cert.ReferenceIdeal Cert.ReferenceIdeal.Gen Cert.ReferenceIdeal.ReadP Idealize.ShloMosaic Idealize.ShloMosaic.ValueIdx
open IdealFinite Cert.NetSpec Cert.NetOnBatch
open scoped BigOperators

/-- An argument or intermediate array of the reference at the extended reals. -/
abbrev Arr (S : Shape) := (⟨S, .f32⟩ : BufTy).Contents (Elt Ideal)

variable (x0 : Arr S16384x784) (x1 : Arr S3072x784) (x2 : Arr S3072) (x3 : Arr S1536x3072) (x4 : Arr S1536) (x5 : Arr S768x1536) (x6 : Arr S768) (x7 : Arr S10x768) (x8 : Arr S10) (x9 : Arr S3072) (x10 : Arr S3072) (x11 : Arr S3072) (x12 : Arr S3072) (x13 : Arr S1536) (x14 : Arr S1536) (x15 : Arr S1536) (x16 : Arr S1536) (x17 : Arr S768) (x18 : Arr S768) (x19 : Arr S768) (x20 : Arr S768)

/-- Hidden layer 1 at row `r`, unit `j`: the clipped batch normalisation of the row's product with the signs of the
    weights (the reference writes a weight's sign as `w + (sign w − w)`, which is `sign w` for a real weight). -/
theorem layer1 (hw : ∀ i, IsFin (x1 i)) (r : Fin 16384) (j : Fin 3072) :
    val_main_v23 (F := Ideal) x0 x1 x2 x9 x10 x11 x12 (ix2 r j)
      = hidden (fun k : Fin 784 => x0 (ix2 r k)) (fun (j : Fin 3072) (k : Fin 784) => x1 (ix2 j k))
          (fun j => x2 (ix1 j)) (fun j => x9 (ix1 j)) (fun j => x10 (ix1 j)) (fun j => x11 (ix1 j)) (fun j => x12 (ix1 j)) j := by
  simp only [val_main_v23_apply, val_main_call0_v4_apply, val_main_call0_v3_apply, val_main_call0_v2_apply, val_main_call0_v1_apply, val_main_call0_v0_apply, val_main_cst_1_apply, val_main_cst_0_apply, val_main_v22_apply, val_main_v21_apply, val_main_v20_apply, val_main_v19_apply, val_main_v18_apply, val_main_v17_apply, val_main_v16_apply, val_main_v15_apply, val_main_v14_apply, val_main_cst_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply]
  have i1 : ∀ k : Fin 784, lidx_main_v4 (ix2 r j) k = ix2 r k := fun k => funext fun a => Fin.ext (by
    match a with
    | ⟨0, _⟩ => rfl
    | ⟨1, _⟩ => rfl)
  have i2 : ∀ k : Fin 784, idx_main_v3 (ridx_main_v4 (ix2 r j) k) = ix2 j k := fun k => funext fun a => Fin.ext (by
    match a with
    | ⟨0, _⟩ => rfl
    | ⟨1, _⟩ => rfl)
  have i3 : idx_main_v5 (idx_main_v6 (ix2 r j)) = ix1 j := funext fun a => Fin.ext (by match a with | ⟨0, _⟩ => rfl)
  have i4 : idx_main_v8 (idx_main_v9 (ix2 r j)) = ix1 j := funext fun a => Fin.ext (by match a with | ⟨0, _⟩ => rfl)
  have i5 : idx_main_v11 (idx_main_v12 (ix2 r j)) = ix1 j := funext fun a => Fin.ext (by match a with | ⟨0, _⟩ => rfl)
  have i6 : idx_main_v17 (idx_main_v18 (ix2 r j)) = ix1 j := funext fun a => Fin.ext (by match a with | ⟨0, _⟩ => rfl)
  have i7 : idx_main_v20 (idx_main_v21 (ix2 r j)) = ix1 j := funext fun a => Fin.ext (by match a with | ⟨0, _⟩ => rfl)
  simp only [i1, i2, i3, i4, i5, i6, i7, Ideal.hostUnary_sign_def, Ideal.addf_def, Ideal.subf_def,
    fun i => add_sign_sub_self (hw i)]
  rfl

/-- The next layer's input: `h + (sign h − h)` of the clipped value `h`, which is `sign h` since `h` is real. -/
theorem sign1 (hw1 : ∀ i, IsFin (x1 i)) (r : Fin 16384) (k : Fin 3072) :
    val_main_v26 (F := Ideal) x0 x1 x2 x9 x10 x11 x12 (ix2 r k) = Ideal.sign (val_main_v23 (F := Ideal) x0 x1 x2 x9 x10 x11 x12 (ix2 r k)) := by
  rw [val_main_v26_apply, val_main_v25_apply, val_main_v24_apply]
  simp only [Ideal.hostUnary_sign_def, Ideal.addf_def, Ideal.subf_def]
  refine add_sign_sub_self ?_
  rw [layer1 x0 x1 x2 x9 x10 x11 x12 hw1]
  exact isFin_clip _

/-- Hidden layer 2 at row `r`, unit `j`: the clipped batch normalisation of the row's product with the signs of the
    weights (the reference writes a weight's sign as `w + (sign w − w)`, which is `sign w` for a real weight). -/
theorem layer2 (hw : ∀ i, IsFin (x3 i)) (r : Fin 16384) (j : Fin 1536) :
    val_main_v50 (F := Ideal) x0 x1 x2 x3 x4 x9 x10 x11 x12 x13 x14 x15 x16 (ix2 r j)
      = hidden (fun k : Fin 3072 => val_main_v26 (F := Ideal) x0 x1 x2 x9 x10 x11 x12 (ix2 r k)) (fun (j : Fin 1536) (k : Fin 3072) => x3 (ix2 j k))
          (fun j => x4 (ix1 j)) (fun j => x13 (ix1 j)) (fun j => x14 (ix1 j)) (fun j => x15 (ix1 j)) (fun j => x16 (ix1 j)) j := by
  simp only [val_main_v50_apply, val_main_call1_v4_apply, val_main_call1_v3_apply, val_main_call1_v2_apply, val_main_call1_v1_apply, val_main_call1_v0_apply, val_main_cst_4_apply, val_main_cst_3_apply, val_main_v49_apply, val_main_v48_apply, val_main_v47_apply, val_main_v46_apply, val_main_v45_apply, val_main_v44_apply, val_main_v43_apply, val_main_v42_apply, val_main_v41_apply, val_main_cst_2_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply]
  have i1 : ∀ k : Fin 3072, lidx_main_v31 (ix2 r j) k = ix2 r k := fun k => funext fun a => Fin.ext (by
    match a with
    | ⟨0, _⟩ => rfl
    | ⟨1, _⟩ => rfl)
  have i2 : ∀ k : Fin 3072, idx_main_v30 (ridx_main_v31 (ix2 r j) k) = ix2 j k := fun k => funext fun a => Fin.ext (by
    match a with
    | ⟨0, _⟩ => rfl
    | ⟨1, _⟩ => rfl)
  have i3 : idx_main_v32 (idx_main_v33 (ix2 r j)) = ix1 j := funext fun a => Fin.ext (by match a with | ⟨0, _⟩ => rfl)
  have i4 : idx_main_v35 (idx_main_v36 (ix2 r j)) = ix1 j := funext fun a => Fin.ext (by match a with | ⟨0, _⟩ => rfl)
  have i5 : idx_main_v38 (idx_main_v39 (ix2 r j)) = ix1 j := funext fun a => Fin.ext (by match a with | ⟨0, _⟩ => rfl)
  have i6 : idx_main_v44 (idx_main_v45 (ix2 r j)) = ix1 j := funext fun a => Fin.ext (by match a with | ⟨0, _⟩ => rfl)
  have i7 : idx_main_v47 (idx_main_v48 (ix2 r j)) = ix1 j := funext fun a => Fin.ext (by match a with | ⟨0, _⟩ => rfl)
  simp only [i1, i2, i3, i4, i5, i6, i7, Ideal.hostUnary_sign_def, Ideal.addf_def, Ideal.subf_def,
    fun i => add_sign_sub_self (hw i)]
  rfl

/-- The next layer's input: `h + (sign h − h)` of the clipped value `h`, which is `sign h` since `h` is real. -/
theorem sign2 (hw2 : ∀ i, IsFin (x3 i)) (r : Fin 16384) (k : Fin 1536) :
    val_main_v53 (F := Ideal) x0 x1 x2 x3 x4 x9 x10 x11 x12 x13 x14 x15 x16 (ix2 r k) = Ideal.sign (val_main_v50 (F := Ideal) x0 x1 x2 x3 x4 x9 x10 x11 x12 x13 x14 x15 x16 (ix2 r k)) := by
  rw [val_main_v53_apply, val_main_v52_apply, val_main_v51_apply]
  simp only [Ideal.hostUnary_sign_def, Ideal.addf_def, Ideal.subf_def]
  refine add_sign_sub_self ?_
  rw [layer2 x0 x1 x2 x3 x4 x9 x10 x11 x12 x13 x14 x15 x16 hw2]
  exact isFin_clip _

/-- Hidden layer 3 at row `r`, unit `j`: the clipped batch normalisation of the row's product with the signs of the
    weights (the reference writes a weight's sign as `w + (sign w − w)`, which is `sign w` for a real weight). -/
theorem layer3 (hw : ∀ i, IsFin (x5 i)) (r : Fin 16384) (j : Fin 768) :
    val_main_v77 (F := Ideal) x0 x1 x2 x3 x4 x5 x6 x9 x10 x11 x12 x13 x14 x15 x16 x17 x18 x19 x20 (ix2 r j)
      = hidden (fun k : Fin 1536 => val_main_v53 (F := Ideal) x0 x1 x2 x3 x4 x9 x10 x11 x12 x13 x14 x15 x16 (ix2 r k)) (fun (j : Fin 768) (k : Fin 1536) => x5 (ix2 j k))
          (fun j => x6 (ix1 j)) (fun j => x17 (ix1 j)) (fun j => x18 (ix1 j)) (fun j => x19 (ix1 j)) (fun j => x20 (ix1 j)) j := by
  simp only [val_main_v77_apply, val_main_call2_v4_apply, val_main_call2_v3_apply, val_main_call2_v2_apply, val_main_call2_v1_apply, val_main_call2_v0_apply, val_main_cst_7_apply, val_main_cst_6_apply, val_main_v76_apply, val_main_v75_apply, val_main_v74_apply, val_main_v73_apply, val_main_v72_apply, val_main_v71_apply, val_main_v70_apply, val_main_v69_apply, val_main_v68_apply, val_main_cst_5_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply]
  have i1 : ∀ k : Fin 1536, lidx_main_v58 (ix2 r j) k = ix2 r k := fun k => funext fun a => Fin.ext (by
    match a with
    | ⟨0, _⟩ => rfl
    | ⟨1, _⟩ => rfl)
  have i2 : ∀ k : Fin 1536, idx_main_v57 (ridx_main_v58 (ix2 r j) k) = ix2 j k := fun k => funext fun a => Fin.ext (by
    match a with
    | ⟨0, _⟩ => rfl
    | ⟨1, _⟩ => rfl)
  have i3 : idx_main_v59 (idx_main_v60 (ix2 r j)) = ix1 j := funext fun a => Fin.ext (by match a with | ⟨0, _⟩ => rfl)
  have i4 : idx_main_v62 (idx_main_v63 (ix2 r j)) = ix1 j := funext fun a => Fin.ext (by match a with | ⟨0, _⟩ => rfl)
  have i5 : idx_main_v65 (idx_main_v66 (ix2 r j)) = ix1 j := funext fun a => Fin.ext (by match a with | ⟨0, _⟩ => rfl)
  have i6 : idx_main_v71 (idx_main_v72 (ix2 r j)) = ix1 j := funext fun a => Fin.ext (by match a with | ⟨0, _⟩ => rfl)
  have i7 : idx_main_v74 (idx_main_v75 (ix2 r j)) = ix1 j := funext fun a => Fin.ext (by match a with | ⟨0, _⟩ => rfl)
  simp only [i1, i2, i3, i4, i5, i6, i7, Ideal.hostUnary_sign_def, Ideal.addf_def, Ideal.subf_def,
    fun i => add_sign_sub_self (hw i)]
  rfl

/-- The output layer at row `r`, class `c`. -/
theorem logits_eq (r : Fin 16384) (j : Fin 10) :
    val_main_v82 (F := Ideal) x0 x1 x2 x3 x4 x5 x6 x7 x8 x9 x10 x11 x12 x13 x14 x15 x16 x17 x18 x19 x20 (ix2 r j)
      = logits (fun k : Fin 768 => val_main_v77 (F := Ideal) x0 x1 x2 x3 x4 x5 x6 x9 x10 x11 x12 x13 x14 x15 x16 x17 x18 x19 x20 (ix2 r k))
          (fun (j : Fin 10) (k : Fin 768) => x7 (ix2 j k)) (fun j => x8 (ix1 j)) j := by
  simp only [val_main_v82_apply, val_main_v81_apply, val_main_v80_apply, val_main_v79_apply, val_main_v78_apply]
  have i1 : ∀ k : Fin 768, lidx_main_v79 (ix2 r j) k = ix2 r k := fun k => funext fun a => Fin.ext (by
    match a with
    | ⟨0, _⟩ => rfl
    | ⟨1, _⟩ => rfl)
  have i2 : ∀ k : Fin 768, idx_main_v78 (ridx_main_v79 (ix2 r j) k) = ix2 j k := fun k => funext fun a => Fin.ext (by
    match a with
    | ⟨0, _⟩ => rfl
    | ⟨1, _⟩ => rfl)
  have i3 : idx_main_v80 (idx_main_v81 (ix2 r j)) = ix1 j := funext fun a => Fin.ext (by match a with | ⟨0, _⟩ => rfl)
  simp only [i1, i2, i3]
  rfl

/-- The log-softmax at row `r`, class `c`, of the row of logits. The row's maximum is the host's reduction by
    maximum from −∞ (a fold of `max` over the ten columns), once more compared with −∞, which changes nothing. -/
theorem softmax_eq (r : Fin 16384) (c : Fin 10) :
    val_main_v83 (F := Ideal) x0 x1 x2 x3 x4 x5 x6 x7 x8 x9 x10 x11 x12 x13 x14 x15 x16 x17 x18 x19 x20 (ix2 r c)
      = logSoftmax (fun c' : Fin 10 => val_main_v82 (F := Ideal) x0 x1 x2 x3 x4 x5 x6 x7 x8 x9 x10 x11 x12 x13 x14 x15 x16 x17 x18 x19 x20 (ix2 r c')) c := by
  have hred : S16384x10.Reduces [1] S16384 := by decide
  have hlift : ∀ k : Fin 10, hred.lift (ix1 r) k = ix2 r k := fun k => funext fun a => Fin.ext (by
    match a with
    | ⟨0, _⟩ => rfl
    | ⟨1, _⟩ => rfl)
  have hmax : ∀ c' : Fin 10, val_main_call3_v4 (F := Ideal) x0 x1 x2 x3 x4 x5 x6 x7 x8 x9 x10 x11 x12 x13 x14 x15 x16 x17 x18 x19 x20 (ix2 r c')
      = rowMax (fun c' : Fin 10 => val_main_v82 (F := Ideal) x0 x1 x2 x3 x4 x5 x6 x7 x8 x9 x10 x11 x12 x13 x14 x15 x16 x17 x18 x19 x20 (ix2 r c')) := by
    intro c'
    rw [val_main_call3_v4_apply, val_main_call3_v3_apply, val_main_call3_v2_apply, val_main_call3_v1_apply,
      val_main_call3_cst_0_apply]
    have e : idx_main_call3_v3 (idx_main_call3_v4 (ix2 r c')) = ix1 r := funext fun a => Fin.ext (by
      match a with
      | ⟨0, _⟩ => rfl)
    rw [e]
    unfold val_main_call3_v0
    rw [Host.reduce_eq_fold_single FloatOps.maximumf _ _ reducesTo_S16384x10_S16384_d1 hred h_S_]
    show max negInf (Finset.fold max negInf _ _) = _
    rw [negInf_eq, max_bot_left]
    unfold rowMax
    rw [negInf_eq]
    exact congrArg (fun f => Finset.fold max (⊥ : EReal) f (Finset.univ : Finset (Fin 10)))
      (funext fun k => congrArg (val_main_v82 (F := Ideal) x0 x1 x2 x3 x4 x5 x6 x7 x8 x9 x10 x11 x12 x13 x14 x15 x16 x17 x18 x19 x20) (hlift k))
  rw [val_main_v83_apply, val_main_call3_v5_apply, hmax, val_main_call3_v10_apply, val_main_call3_v9_apply,
    val_main_call3_v8_apply, val_main_call3_v7_apply, val_main_call3_cst_1_apply]
  unfold logSoftmax
  show (_ - _) - Ideal.log (Ideal.ofBits .f32 0x00000000#32 + _) = _
  rw [Ideal.ofBits_zero_f32, zero_add]
  refine congrArg (fun s => (val_main_v82 (F := Ideal) x0 x1 x2 x3 x4 x5 x6 x7 x8 x9 x10 x11 x12 x13 x14 x15 x16 x17 x18 x19 x20 (ix2 r c)
      - rowMax fun c' : Fin 10 => val_main_v82 (F := Ideal) x0 x1 x2 x3 x4 x5 x6 x7 x8 x9 x10 x11 x12 x13 x14 x15 x16 x17 x18 x19 x20 (ix2 r c')) - Ideal.log s)
    (Finset.sum_congr rfl fun k _ => ?_)
  have e : idx_main_call3_v7 (idx_main_call3_v8 (idx_main_call3_v10 (ix2 r c))) k = ix2 r k := funext fun a => Fin.ext (by
    match a with
    | ⟨0, _⟩ => rfl
    | ⟨1, _⟩ => rfl)
  rw [e, val_main_call3_v6_apply, val_main_call3_v5_apply, hmax]
  rfl

/-- The reference's result at row `r`, class `c`, is the network on the whole batch there, for real weights. -/
theorem result_eq (hw1 : ∀ i, IsFin (x1 i)) (hw2 : ∀ i, IsFin (x3 i)) (hw3 : ∀ i, IsFin (x5 i)) :
    val_main_v83 (F := Ideal) x0 x1 x2 x3 x4 x5 x6 x7 x8 x9 x10 x11 x12 x13 x14 x15 x16 x17 x18 x19 x20
      = G x0 x1 x2 x3 x4 x5 x6 x7 x8 x9 x10 x11 x12 x13 x14 x15 x16 x17 x18 x19 x20 := by
  funext i
  obtain ⟨r, c, rfl⟩ : ∃ (r : Fin 16384) (c : Fin 10), i = ix2 r c := ⟨i 0, i 1, eq_ix2 i⟩
  rw [softmax_eq, G_apply]
  unfold net
  simp only [logits_eq, layer3 x0 x1 x2 x3 x4 x5 x6 x9 x10 x11 x12 x13 x14 x15 x16 x17 x18 x19 x20 hw3, sign2 x0 x1 x2 x3 x4 x9 x10 x11 x12 x13 x14 x15 x16 hw2,
    layer2 x0 x1 x2 x3 x4 x9 x10 x11 x12 x13 x14 x15 x16 hw2, sign1 x0 x1 x2 x9 x10 x11 x12 hw1, layer1 x0 x1 x2 x9 x10 x11 x12 hw1]

end Cert.RefNet

end
-- ==== Proof.lean ====
/-
  The certificate: a fused four-layer binarized perceptron (three hidden layers of sign-weight products with batch
  normalisation and a clip, then an affine map and a log-softmax) against its jnp reference, over the extended reals.

  Both programs compute, on every row of the 16384-row input, the same row-wise network. The kernel folds each
  layer's bias and batch-normalisation statistics into a scale and a shift on the host and walks the batch in 64
  blocks of 256 rows; the reference applies the batch normalisation term by term on whole arrays. The two agree by
  the distributive law once every parameter is a real number and every variance is not negative: then
  `rsqrt (v + ε)` is a real number too, and no infinity enters the arithmetic. That is what the precondition states.

  The three frames: the kernel's two are the generated frame certificates; the reference's is its run with the result
  dropped. The idealization rewrote the two "1 with the sign bit of h" windows into selects on `h < 0`: the two
  conjuncts of `preserves` are that rule's statement at the two shapes.
-/
import proofs.«409394_j3582002725505_3_alg».proof.Defs
import proofs.«409394_j3582002725505_3_alg».proof.Proof.Gen.Kernel
import proofs.«409394_j3582002725505_3_alg».proof.Proof.Gen.Kernel.Frame
import proofs.«409394_j3582002725505_3_alg».proof.Proof.Gen.KernelIdeal
import proofs.«409394_j3582002725505_3_alg».proof.Proof.Gen.KernelIdeal.Frame
import proofs.«409394_j3582002725505_3_alg».proof.Proof.Gen.ReferenceIdeal
import proofs.«409394_j3582002725505_3_alg».proof.Proof.Gen.Pre_finite_inputs
import proofs.«409394_j3582002725505_3_alg».proof.Proof.PreFacts
import proofs.«409394_j3582002725505_3_alg».proof.Proof.KernelArray
import proofs.«409394_j3582002725505_3_alg».proof.Proof.RefRun
import proofs.«409394_j3582002725505_3_alg».proof.Proof.RefRead
import proofs.«409394_j3582002725505_3_alg».proof.Proof.RefIsNet
import Idealize.ShloMosaic.Adequacy
import Idealize.ShloMosaic.Init

noncomputable section

namespace Cert.Proof

open Idealize.ShloMosaic Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- "1 with the sign bit of `h`", twice: at the extended reals the select on `h < 0`, at the words ±1's pattern by the
    sign bit. -/
theorem preserves : Cert.preserves_Kernel_KernelIdeal :=
  ⟨IdealRules.sign_bit.statement _ _, IdealRules.sign_bit.statement _ _⟩

/-! ## Equal results -/

/-- From memories that agree on the arguments, both programs end with the network on the whole batch in their
    result arrays. -/
theorem algebraic : Cert.algebraic_KernelIdeal_ReferenceIdeal := by
  intro m ρ m' ρ' hpre hagree
  -- what the precondition says of each device's arguments
  have hf := fun c : Dev Cert.KernelIdeal.nD => Cert.PreFacts.of_pre
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (hpre c)
  refine ⟨fun c => Cert.KernelArray.result m c, Cert.KernelArray.run m ρ (fun c => ?_), ?_⟩
  · obtain ⟨a0, a1, a2, a3, a4, a5, a6, a7, a8, a9, a10, a11, a12, a13, a14, a15, a16, a17, a18, a19, a20, n12, n16, n20⟩ := hf c
    exact ⟨a0, ⟨a2, a9, a10, a11, n12⟩, ⟨a4, a13, a14, a15, n16⟩, ⟨a6, a17, a18, a19, n20⟩⟩
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9, a10, a11, a12, a13, a14, a15, a16, a17, a18, a19, a20, n12, n16, n20⟩ := hf c
    obtain ⟨e0, e1, e2, e3, e4, e5, e6, e7, e8, e9, e10, e11, e12, e13, e14, e15, e16, e17, e18, e19, e20⟩ := hagree c
    rw [Cert.ReferenceIdeal.ReadP.val_main_v83_eq, e0, e1, e2, e3, e4, e5, e6, e7, e8, e9, e10, e11, e12, e13, e14, e15, e16, e17, e18, e19, e20]
    exact Cert.RefNet.result_eq _ _ _ _ _ _ _ _ _ _ _ _ _ _ _ _ _ _ _ _ _ a1 a3 a5

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
